-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x576 : Shape := ⟨2, ![32, 576]⟩
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S32x576 : S_.BroadcastsInDim S32x576 (![] : Fin 0 → Fin S32x576.rank)
  reducesTo_S32x576_S_d0_1 : S32x576.ReducesTo [0, 1] S_

variable [Facts]

def fn_part1 {F : FTy → Type} [FloatOps F] (main_arg0 : IVec S32x576 32) (main_arg5 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_c_8 : IVec S_ 32 := constantI S_ 32 0#32
  let main_v24 : IVec S32x576 32 := broadcastInDim S32x576 ![] bcast_S_S32x576 main_c_8
  let main_v25 : IVec S32x576 1 := cmpi .sge main_arg0 main_v24
  let main_c_9 : IVec S_ 32 := constantI S_ 32 8192#32
  let main_v26 : IVec S32x576 32 := broadcastInDim S32x576 ![] bcast_S_S32x576 main_c_9
  let main_v27 : IVec S32x576 1 := cmpi .slt main_arg0 main_v26
  let main_v28 : IVec S32x576 1 := andi main_v25 main_v27
  let main_c_10 : IVec S_ 1 := constantI S_ 1 1#1
  let main_v29 : IVec S_ 1 := (fun x v => Host.reduce IntOp.andi x v reducesTo_S32x576_S_d0_1 h_S_) main_v28 main_c_10
  let main_v30 : IVec S_ 1 := andi main_v23 main_v29
  main_v30

def fn {F : FTy → Type} [FloatOps F] (main_arg0 : IVec S32x576 32) (main_arg1 : FVec F S8192x1024 .f32) (main_arg2 : FVec F S1024x4096 .f32) (main_arg3 : FVec F S4096 .f32) (main_arg4 : FVec F S4096x1024 .f32) (main_arg5 : FVec F S1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x4096 .f32 := Host.absf main_arg2
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg0 main_arg5 main_v13 main_v16
-- ==== Kernel.lean ====
abbrev S32x576 : Shape := ⟨2, ![32, 576]⟩
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩
abbrev S32x576x1 : Shape := ⟨3, ![32, 576, 1]⟩
abbrev S1 : Shape := ⟨1, ![1]⟩
abbrev S1x1x1 : Shape := ⟨3, ![1, 1, 1]⟩
abbrev S32x576x1024 : Shape := ⟨3, ![32, 576, 1024]⟩
abbrev S18432x1024 : Shape := ⟨2, ![18432, 1024]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 45
  | .vmem => 8
  | .smem => 0
  | _ => 0

abbrev bufTy : (tb : Table) → Fin (tcTables nBuf tb) → BufTy
  | .hbm, ⟨0, _⟩ => ⟨S32x576, .i32⟩
  | .hbm, ⟨1, _⟩ => ⟨S8192x1024, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S32x576, .i32⟩
  | .hbm, ⟨10, _⟩ => ⟨S32x576, .i32⟩
  | .hbm, ⟨11, _⟩ => ⟨S_, .i32⟩
  | .hbm, ⟨12, _⟩ => ⟨S32x576, .i32⟩
  | .hbm, ⟨13, _⟩ => ⟨S32x576, .i32⟩
  | .hbm, ⟨14, _⟩ => ⟨S_, .i32⟩
  | .hbm, ⟨15, _⟩ => ⟨S32x576, .i32⟩
  | .hbm, ⟨16, _⟩ => ⟨S32x576, .i1⟩
  | .hbm, ⟨17, _⟩ => ⟨S_, .i32⟩
  | .hbm, ⟨18, _⟩ => ⟨S32x576, .i32⟩
  | .hbm, ⟨19, _⟩ => ⟨S32x576, .i32⟩
  | .hbm, ⟨20, _⟩ => ⟨S32x576, .i32⟩
  | .hbm, ⟨21, _⟩ => ⟨S32x576x1, .i32⟩
  | .hbm, ⟨22, _⟩ => ⟨S1, .i32⟩
  | .hbm, ⟨23, _⟩ => ⟨S_, .i32⟩
  | .hbm, ⟨24, _⟩ => ⟨S32x576x1, .i32⟩
  | .hbm, ⟨25, _⟩ => ⟨S32x576x1, .i1⟩
  | .hbm, ⟨26, _⟩ => ⟨S1x1x1, .i32⟩
  | .hbm, ⟨27, _⟩ => ⟨S32x576x1, .i32⟩
  | .hbm, ⟨28, _⟩ => ⟨S32x576x1, .i1⟩
  | .hbm, ⟨29, _⟩ => ⟨S32x576x1, .i1⟩
  | .hbm, ⟨30, _⟩ => ⟨S_, .i1⟩
  | .hbm, ⟨31, _⟩ => ⟨S32x576, .i1⟩
  | .hbm, ⟨32, _⟩ => ⟨S32x576x1024, .f32⟩
  | .hbm, ⟨33, _⟩ => ⟨S32x576x1024, .i1⟩
  | .hbm, ⟨34, _⟩ => ⟨S_, .f32⟩
  | .hbm, ⟨35, _⟩ => ⟨S32x576x1024, .f32⟩
  | .hbm, ⟨36, _⟩ => ⟨S32x576x1024, .f32⟩
  | .hbm, ⟨37, _⟩ => ⟨S18432x1024, .f32⟩
  | .hbm, ⟨38, _⟩ => ⟨S18432x1024, .bf16⟩
  | .hbm, ⟨39, _⟩ => ⟨S1024x4096, .bf16⟩
  | .hbm, ⟨40, _⟩ => ⟨S4096x1024, .bf16⟩
  | .hbm, ⟨41, _⟩ => ⟨S1x4096, .f32⟩
  | .hbm, ⟨42, _⟩ => ⟨S1x1024, .f32⟩
  | .hbm, ⟨43, _⟩ => ⟨S18432x1024, .f32⟩
  | .hbm, ⟨44, _⟩ => ⟨S32x576x1024, .f32⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S32x576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_call1_cst : Ref sig .tc := ⟨.hbm, 34, rfl⟩
abbrev main_call1_v15 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S32x576 : S_.BroadcastsInDim S32x576 (![] : Fin 0 → Fin S32x576.rank)
  bcast_S32x576_S32x576x1_0_1 : S32x576.BroadcastsInDim S32x576x1 (![0, 1] : Fin 2 → Fin S32x576x1.rank)
  bcast_S_S32x576x1 : S_.BroadcastsInDim S32x576x1 (![] : Fin 0 → Fin S32x576x1.rank)
  bcast_S1_S1x1x1_2 : S1.BroadcastsInDim S1x1x1 (![2] : Fin 1 → Fin S1x1x1.rank)
  bcast_S1x1x1_S32x576x1_0_1_2 : S1x1x1.BroadcastsInDim S32x576x1 (![0, 1, 2] : Fin 3 → Fin S32x576x1.rank)
  reducesTo_S32x576x1_S32x576_d2 : S32x576x1.ReducesTo [2] S32x576
  h_S_ : 0 < S_.numel
  bcast_S32x576_S32x576x1024_0_1 : S32x576.BroadcastsInDim S32x576x1024 (![0, 1] : Fin 2 → Fin S32x576x1024.rank)
  bcast_S_S32x576x1024 : S_.BroadcastsInDim S32x576x1024 (![] : Fin 0 → Fin S32x576x1024.rank)
  shapeCasts_S32x576x1024_S18432x1024 : S32x576x1024.ShapeCasts S18432x1024
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S18432x1024_S32x576x1024 : S18432x1024.ShapeCasts S32x576x1024
  gather_S8192x1024_S32x576x1_S32x576x1024_2_0_n_n_0_2_11024_wf : GatherDims.WF S8192x1024 S32x576x1 S32x576x1024 [2] [0] [] [0] [] 2 ![1, 1024]
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S18432x1024.size a
  hwx0_0 : ∀ i : grid0.Coords, EltTy.bits .bf16 = 32 ∨ (Rect.block (s := S18432x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S18432x1024.size a
  hwx0_5 : ∀ i : grid0.Coords, EltTy.bits .f32 = 32 ∨ (Rect.block (s := S18432x1024) S256x1024.size (cc0_transform_5 i) (hinb0_5 i)).WholeWords (EltTy.packing .f32)

variable [Facts₀]

def gather_S8192x1024_S32x576x1_S32x576x1024_2_0_n_n_0_2_11024 : GatherDims S8192x1024 S32x576x1 S32x576x1024 where
  offsetDims := [2]
  collapsedSliceDims := [0]
  operandBatchingDims := []
  startIndicesBatchingDims := []
  startIndexMap := [0]
  indexVectorDim := 2
  sliceSizes := ![1, 1024]
  wf := gather_S8192x1024_S32x576x1_S32x576x1024_2_0_n_n_0_2_11024_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v3) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x576 : Shape := ⟨2, ![32, 576]⟩
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩
abbrev S32x576x1 : Shape := ⟨3, ![32, 576, 1]⟩
abbrev S1 : Shape := ⟨1, ![1]⟩
abbrev S1x1x1 : Shape := ⟨3, ![1, 1, 1]⟩
abbrev S32x576x1024 : Shape := ⟨3, ![32, 576, 1024]⟩
abbrev S32x576x4096 : Shape := ⟨3, ![32, 576, 4096]⟩
abbrev S1x1x4096 : Shape := ⟨3, ![1, 1, 4096]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S32x576, .i32⟩
  | .hbm, ⟨1, _⟩ => ⟨S8192x1024, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S_, .i32⟩
  | .hbm, ⟨7, _⟩ => ⟨S32x576, .i32⟩
  | .hbm, ⟨8, _⟩ => ⟨S32x576, .i1⟩
  | .hbm, ⟨9, _⟩ => ⟨S_, .i32⟩
  | .hbm, ⟨10, _⟩ => ⟨S32x576, .i32⟩
  | .hbm, ⟨11, _⟩ => ⟨S32x576, .i32⟩
  | .hbm, ⟨12, _⟩ => ⟨S32x576, .i32⟩
  | .hbm, ⟨13, _⟩ => ⟨S32x576x1, .i32⟩
  | .hbm, ⟨14, _⟩ => ⟨S1, .i32⟩
  | .hbm, ⟨15, _⟩ => ⟨S_, .i32⟩
  | .hbm, ⟨16, _⟩ => ⟨S32x576x1, .i32⟩
  | .hbm, ⟨17, _⟩ => ⟨S32x576x1, .i1⟩
  | .hbm, ⟨18, _⟩ => ⟨S1x1x1, .i32⟩
  | .hbm, ⟨19, _⟩ => ⟨S32x576x1, .i32⟩
  | .hbm, ⟨20, _⟩ => ⟨S32x576x1, .i1⟩
  | .hbm, ⟨21, _⟩ => ⟨S32x576x1, .i1⟩
  | .hbm, ⟨22, _⟩ => ⟨S_, .i1⟩
  | .hbm, ⟨23, _⟩ => ⟨S32x576, .i1⟩
  | .hbm, ⟨24, _⟩ => ⟨S32x576x1024, .f32⟩
  | .hbm, ⟨25, _⟩ => ⟨S32x576x1024, .i1⟩
  | .hbm, ⟨26, _⟩ => ⟨S_, .f32⟩
  | .hbm, ⟨27, _⟩ => ⟨S32x576x1024, .f32⟩
  | .hbm, ⟨28, _⟩ => ⟨S32x576x1024, .f32⟩
  | .hbm, ⟨29, _⟩ => ⟨S32x576x4096, .f32⟩
  | .hbm, ⟨30, _⟩ => ⟨S1x1x4096, .f32⟩
  | .hbm, ⟨31, _⟩ => ⟨S32x576x4096, .f32⟩
  | .hbm, ⟨32, _⟩ => ⟨S32x576x4096, .f32⟩
  | .hbm, ⟨33, _⟩ => ⟨S32x576x4096, .f32⟩
  | .hbm, ⟨34, _⟩ => ⟨S32x576x4096, .f32⟩
  | .hbm, ⟨35, _⟩ => ⟨S_, .f32⟩
  | .hbm, ⟨36, _⟩ => ⟨S32x576x4096, .f32⟩
  | .hbm, ⟨37, _⟩ => ⟨S32x576x4096, .f32⟩
  | .hbm, ⟨38, _⟩ => ⟨S32x576x4096, .f32⟩
  | .hbm, ⟨39, _⟩ => ⟨S_, .f32⟩
  | .hbm, ⟨40, _⟩ => ⟨S32x576x4096, .f32⟩
  | .hbm, ⟨41, _⟩ => ⟨S32x576x4096, .f32⟩
  | .hbm, ⟨42, _⟩ => ⟨S32x576x4096, .f32⟩
  | .hbm, ⟨43, _⟩ => ⟨S_, .f32⟩
  | .hbm, ⟨44, _⟩ => ⟨S32x576x4096, .f32⟩
  | .hbm, ⟨45, _⟩ => ⟨S32x576x4096, .f32⟩
  | .hbm, ⟨46, _⟩ => ⟨S_, .f32⟩
  | .hbm, ⟨47, _⟩ => ⟨S32x576x4096, .f32⟩
  | .hbm, ⟨48, _⟩ => ⟨S32x576x4096, .f32⟩
  | .hbm, ⟨49, _⟩ => ⟨S32x576x4096, .f32⟩
  | .hbm, ⟨50, _⟩ => ⟨S32x576x1024, .f32⟩
  | .hbm, ⟨51, _⟩ => ⟨S1x1x1024, .f32⟩
  | .hbm, ⟨52, _⟩ => ⟨S32x576x1024, .f32⟩
  | .hbm, ⟨53, _⟩ => ⟨S32x576x1024, .f32⟩
  | _, _ => ⟨S32x576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩

abbrev nD : Nat := 1
abbrev τ : Topo := Topo.v7x

variable {F : FTy → Type} [FloatOps F]

class Facts₀ : Prop where
  bcast_S_S32x576 : S_.BroadcastsInDim S32x576 (![] : Fin 0 → Fin S32x576.rank)
  bcast_S32x576_S32x576x1_0_1 : S32x576.BroadcastsInDim S32x576x1 (![0, 1] : Fin 2 → Fin S32x576x1.rank)
  bcast_S_S32x576x1 : S_.BroadcastsInDim S32x576x1 (![] : Fin 0 → Fin S32x576x1.rank)
  bcast_S1_S1x1x1_2 : S1.BroadcastsInDim S1x1x1 (![2] : Fin 1 → Fin S1x1x1.rank)
  bcast_S1x1x1_S32x576x1_0_1_2 : S1x1x1.BroadcastsInDim S32x576x1 (![0, 1, 2] : Fin 3 → Fin S32x576x1.rank)
  reducesTo_S32x576x1_S32x576_d2 : S32x576x1.ReducesTo [2] S32x576
  h_S_ : 0 < S_.numel
  bcast_S32x576_S32x576x1024_0_1 : S32x576.BroadcastsInDim S32x576x1024 (![0, 1] : Fin 2 → Fin S32x576x1024.rank)
  bcast_S_S32x576x1024 : S_.BroadcastsInDim S32x576x1024 (![] : Fin 0 → Fin S32x576x1024.rank)
  bcast_S4096_S1x1x4096_2 : S4096.BroadcastsInDim S1x1x4096 (![2] : Fin 1 → Fin S1x1x4096.rank)
  bcast_S1x1x4096_S32x576x4096_0_1_2 : S1x1x4096.BroadcastsInDim S32x576x4096 (![0, 1, 2] : Fin 3 → Fin S32x576x4096.rank)
  bcast_S_S32x576x4096 : S_.BroadcastsInDim S32x576x4096 (![] : Fin 0 → Fin S32x576x4096.rank)
  bcast_S1024_S1x1x1024_2 : S1024.BroadcastsInDim S1x1x1024 (![2] : Fin 1 → Fin S1x1x1024.rank)
  bcast_S1x1x1024_S32x576x1024_0_1_2 : S1x1x1024.BroadcastsInDim S32x576x1024 (![0, 1, 2] : Fin 3 → Fin S32x576x1024.rank)
  gather_S8192x1024_S32x576x1_S32x576x1024_2_0_n_n_0_2_11024_wf : GatherDims.WF S8192x1024 S32x576x1 S32x576x1024 [2] [0] [] [0] [] 2 ![1, 1024]
  dot_S32x576x1024_S1024x4096_S32x576x4096_2_0_01_1_n_n_wf : DotDims.WF S32x576x1024 S1024x4096 S32x576x4096 [2] [0] [0, 1] [1] [] []
  dot_S32x576x4096_S4096x1024_S32x576x1024_2_0_01_1_n_n_wf : DotDims.WF S32x576x4096 S4096x1024 S32x576x1024 [2] [0] [0, 1] [1] [] []

variable [Facts₀]

def gather_S8192x1024_S32x576x1_S32x576x1024_2_0_n_n_0_2_11024 : GatherDims S8192x1024 S32x576x1 S32x576x1024 where
  offsetDims := [2]
  collapsedSliceDims := [0]
  operandBatchingDims := []
  startIndicesBatchingDims := []
  startIndexMap := [0]
  indexVectorDim := 2
  sliceSizes := ![1, 1024]
  wf := gather_S8192x1024_S32x576x1_S32x576x1024_2_0_n_n_0_2_11024_wf
def dot_S32x576x1024_S1024x4096_S32x576x4096_2_0_01_1_n_n : DotDims S32x576x1024 S1024x4096 S32x576x4096 where
  lhsContracting := [2]
  rhsContracting := [0]
  lhsNonContracting := [0, 1]
  rhsNonContracting := [1]
  lhsBatch := []
  rhsBatch := []
  wf := dot_S32x576x1024_S1024x4096_S32x576x4096_2_0_01_1_n_n_wf
def dot_S32x576x4096_S4096x1024_S32x576x1024_2_0_01_1_n_n : DotDims S32x576x4096 S4096x1024 S32x576x1024 where
  lhsContracting := [2]
  rhsContracting := [0]
  lhsNonContracting := [0, 1]
  rhsNonContracting := [1]
  lhsBatch := []
  rhsBatch := []
  wf := dot_S32x576x4096_S4096x1024_S32x576x1024_2_0_01_1_n_n_wf

class Facts : Prop extends Facts₀ where

variable [Facts]
-- ==== Proof.Spec.lean ====
/-
  What both programs compute, as one function of the argument arrays.

  A token (b, m) reads one row of the codebook, the row its index names, and the row goes through a perceptron of
  two layers with the tanh form of GELU between them:
      out[b, m, o] = (∑ h, gelu ((∑ d, q[d] · W1[d, h]) + b1[h]) · W2[h, o]) + b2[o],     q = the row of token (b, m),
      gelu x = x · (½ · (1 + tanh (c₂ · (x + c₁ · (x · (x · x)))))),
  with c₁, c₂, ½ and 1 the four binary32 words both programs carry. On the extended reals a change of float format
  is the identity and a contraction is one sum over the contracted axis, whatever the tiling of the rows.

  The row lookup (a negative index wrapped once by the table's height; a row of one fixed word where the wrapped
  index is still outside the table) is text the two programs share: it is one function here, `lookup`, and no
  proof opens it. One program clamps the index into [0, 8191] first (`clip`); on an index already in that range the
  clamp returns it.
-/
import Idealize.ShloMosaic.PureOps.Ideal
import Idealize.ShloMosaic.Lib.ValueIdx

noncomputable section

open scoped BigOperators

namespace Cert.Mlp

open Idealize.ShloMosaic Idealize.ShloMosaic.ValueIdx

/-! ## Shapes -/

abbrev S_ : Shape := ⟨0, ![]⟩
abbrev S1 : Shape := ⟨1, ![1]⟩
abbrev S1x1x1 : Shape := ⟨3, ![1, 1, 1]⟩
/-- One index per token. -/
abbrev STok : Shape := ⟨2, ![32, 576]⟩
abbrev STok1 : Shape := ⟨3, ![32, 576, 1]⟩
/-- The codebook: 8192 rows of 1024. -/
abbrev SCb : Shape := ⟨2, ![8192, 1024]⟩
/-- One row of 1024 per token. -/
abbrev SRows : Shape := ⟨3, ![32, 576, 1024]⟩
abbrev SW1 : Shape := ⟨2, ![1024, 4096]⟩
abbrev SB1 : Shape := ⟨1, ![4096]⟩
abbrev SW2 : Shape := ⟨2, ![4096, 1024]⟩
abbrev SB2 : Shape := ⟨1, ![1024]⟩

theorem bcast_S_STok : S_.BroadcastsInDim STok (![] : Fin 0 → Fin STok.rank) := by decide
theorem bcast_STok_STok1 : STok.BroadcastsInDim STok1 (![0, 1] : Fin 2 → Fin STok1.rank) := by decide
theorem bcast_S_STok1 : S_.BroadcastsInDim STok1 (![] : Fin 0 → Fin STok1.rank) := by decide
theorem bcast_S1_S1x1x1 : S1.BroadcastsInDim S1x1x1 (![2] : Fin 1 → Fin S1x1x1.rank) := by decide
theorem bcast_S1x1x1_STok1 : S1x1x1.BroadcastsInDim STok1 (![0, 1, 2] : Fin 3 → Fin STok1.rank) := by decide
theorem reducesTo_STok1_STok : STok1.ReducesTo [2] STok := by decide
theorem h_S_ : 0 < S_.numel := by decide
theorem bcast_STok_SRows : STok.BroadcastsInDim SRows (![0, 1] : Fin 2 → Fin SRows.rank) := by decide
theorem bcast_S_SRows : S_.BroadcastsInDim SRows (![] : Fin 0 → Fin SRows.rank) := by decide

/-! ## The clamp and the lookup -/

/-- The index clamped into [0, 8191]: the larger of 0 and the index, then the smaller of 8191 and that. -/
def clip (idx : IVec STok 32) : IVec STok 32 :=
  minsi (broadcastInDim STok ![] bcast_S_STok (constantI S_ 32 8191#32))
    (maxsi (broadcastInDim STok ![] bcast_S_STok (constantI S_ 32 0#32)) idx)

/-- The gather of whole rows: one start index per token, into axis 0 of the codebook, a slice of one row. -/
def lookupDims : GatherDims SCb STok1 SRows where
  offsetDims := [2]
  collapsedSliceDims := [0]
  operandBatchingDims := []
  startIndicesBatchingDims := []
  startIndexMap := [0]
  indexVectorDim := 2
  sliceSizes := ![1, 1024]
  wf := by decide

/-- The row of each token: a negative index has the table's height added once; the row at the resulting index
    where that lies in [0, 8191], and elsewhere a row of the one word 0x7FC00000. -/
def lookup {F : FTy → Type} [FloatOps F] (cb : FVec F SCb .f32) (idx : IVec STok 32) : FVec F SRows .f32 :=
  let zero : IVec STok 32 := broadcastInDim STok ![] bcast_S_STok (constantI S_ 32 0#32)
  let neg : IVec STok 1 := cmpi .slt idx zero
  let height : IVec STok 32 := broadcastInDim STok ![] bcast_S_STok (constantI S_ 32 8192#32)
  let wrapped : IVec STok 32 := select neg (addi idx height) idx
  let start : IVec STok1 32 := broadcastInDim STok1 ![0, 1] bcast_STok_STok1 wrapped
  let lo : IVec STok1 1 := cmpi .sge start (broadcastInDim STok1 ![] bcast_S_STok1 (constantI S_ 32 0#32))
  let hi : IVec STok1 1 := cmpi .sle start
    (broadcastInDim STok1 ![0, 1, 2] bcast_S1x1x1_STok1 (broadcastInDim S1x1x1 ![2] bcast_S1_S1x1x1 (constantI S1 32 8191#32)))
  let inside : IVec STok 1 := Host.reduce IntOp.andi (andi lo hi) (constantI S_ 1 1#1) reducesTo_STok1_STok h_S_
  select (broadcastInDim SRows ![0, 1] bcast_STok_SRows inside) (Host.gather lookupDims cb start)
    (broadcastInDim SRows ![] bcast_S_SRows (constant S_ .f32 0x7FC00000#32))

/-! ## The perceptron, at one token -/

/-- The four words of the activation, as extended reals. -/
def c₁ : EReal := Ideal.ofBits .f32 0x3D372713#32
def c₂ : EReal := Ideal.ofBits .f32 0x3F4C422A#32
def one : EReal := Ideal.ofBits .f32 0x3F800000#32
def half : EReal := Ideal.ofBits .f32 0x3F000000#32

/-- The tanh form of GELU on one extended real. -/
def gelu (x : EReal) : EReal := x * (half * (one + Ideal.tanh (c₂ * (x + c₁ * (x * (x * x))))))

/-- Hidden unit `h` of a token whose row is `q`. -/
def hidden (q : Fin 1024 → EReal) (W1 : FVec Ideal SW1 .f32) (b1 : FVec Ideal SB1 .f32) (h : Fin 4096) : EReal :=
  gelu ((∑ d : Fin 1024, q d * W1 (ix2 d h)) + b1 (ix1 h))

/-- Output `o` of a token whose row is `q`. -/
def outAt (q : Fin 1024 → EReal) (W1 : FVec Ideal SW1 .f32) (b1 : FVec Ideal SB1 .f32) (W2 : FVec Ideal SW2 .f32)
    (b2 : FVec Ideal SB2 .f32) (o : Fin 1024) : EReal :=
  (∑ h : Fin 4096, hidden q W1 b1 h * W2 (ix2 h o)) + b2 (ix1 o)

/-- The whole result from the tokens' rows: entry (b, m, o) is output `o` of the token whose row is `rows[b, m, ·]`. -/
def result (rows : FVec Ideal SRows .f32) (W1 : FVec Ideal SW1 .f32) (b1 : FVec Ideal SB1 .f32) (W2 : FVec Ideal SW2 .f32)
    (b2 : FVec Ideal SB2 .f32) : FVec Ideal SRows .f32 :=
  fun i => outAt (fun d => rows (ix3 (i 0 : Fin 32) (i 1 : Fin 576) d)) W1 b1 W2 b2 (i 2 : Fin 1024)

theorem result_apply (rows : FVec Ideal SRows .f32) (W1 : FVec Ideal SW1 .f32) (b1 : FVec Ideal SB1 .f32) (W2 : FVec Ideal SW2 .f32)
    (b2 : FVec Ideal SB2 .f32) (b : Fin 32) (t : Fin 576) (o : Fin 1024) :
    result rows W1 b1 W2 b2 (ix3 b t o) = outAt (fun d => rows (ix3 b t d)) W1 b1 W2 b2 o := rfl

end Cert.Mlp

end
-- ==== Proof.PreIndex.lean ====
/-
  The precondition's last conjunct, read back: every index lies in [0, 8191], so clamping it there changes nothing.
-/
import proofs.«430718_j51926154608671_3_alg».proof.Pre_finite_inputs
import proofs.«430718_j51926154608671_3_alg».proof.Proof.Spec
import Idealize.ShloMosaic.Lib.ReduceAll
import Idealize.ShloMosaic.Lib.StableHlo.Predicate

noncomputable section

namespace Cert.Mlp

open Idealize.ShloMosaic Idealize.ShloMosaic.ValueIdx

/-- A 32-bit word w with 0 ≤ w < 8192, read signed, is fixed by the clamp: the larger of 0 and w is w, since w is not
    below 0, and the smaller of 8191 and that is w, since 8191 is not below w. -/
theorem clamp_word (w : BitVec 32) (h0 : IntOp.cmpi .sge w 0#32 = 1#1) (h1 : IntOp.cmpi .slt w 8192#32 = 1#1) :
    IntOp.minsi 8191#32 (IntOp.maxsi 0#32 w) = w := by
  rw [IntOp.cmpi_sge] at h0
  rw [IntOp.cmpi_slt] at h1
  have e0 : (0#32 : BitVec 32).toInt = 0 := by decide
  have e1 : (8192#32 : BitVec 32).toInt = 8192 := by decide
  have e2 : (8191#32 : BitVec 32).toInt = 8191 := by decide
  rw [e0] at h0
  rw [e1] at h1
  have hmax : IntOp.maxsi 0#32 w = w := by
    unfold IntOp.maxsi
    rw [if_neg]
    rw [BitVec.slt_iff_toInt_lt, e0]
    omega
  rw [hmax]
  unfold IntOp.minsi
  rw [if_neg]
  rw [BitVec.slt_iff_toInt_lt, e2]
  omega

/-- Under the precondition the clamp into [0, 8191] returns the index array itself. -/
theorem clip_eq_of_pre {F : FTy → Type} [FloatOps F] [Cert.Pre_finite_inputs.Facts] (idx : IVec STok 32) (cb : FVec F SCb .f32) (W1 : FVec F SW1 .f32)
    (b1 : FVec F SB1 .f32) (W2 : FVec F SW2 .f32) (b2 : FVec F SB2 .f32)
    (h : Cert.Pre_finite_inputs.fn (F := F) idx cb W1 b1 W2 b2 = fun _ => 1#1) : clip idx = idx := by
  -- the predicate is one word, and it is 1; it is a conjunction whose last conjunct is the range test on the indices
  have h1 := congrFun h ValueIdx.ix0
  dsimp only [Cert.Pre_finite_inputs.fn, Cert.Pre_finite_inputs.fn_part1] at h1
  have h2 := (IntOp.andi_eq_one.1 h1).2
  -- the range test is a conjunction over all tokens, reduced to a shape with one index: each token's bit is 1
  haveI : Subsingleton S_.Idx := ⟨fun a b => funext fun d => d.elim0⟩
  funext i
  have hi := Host.reduce_andi_all _ _ _ _ _ h2 i
  obtain ⟨ha, hb⟩ := IntOp.andi_eq_one.1 hi
  -- at token i: 0 ≤ idx i and idx i < 8192, signed; the clamp fixes such a word
  exact clamp_word (idx i) ha hb

end Cert.Mlp

end
-- ==== Proof.LibTypedRead.lean ====
/-
  Reading a host operation's result through a TYPED reference, without transports.

  A function that jax outlined (a softmax, a clip) prints once, over references that carry the type of the tensor they
  hold (`StableHlo.TRef sig T`); each of its operations moves its function to the reference's own buffer type along the
  equation `ref.ty = T` (`TRef.toBuf` / `TRef.ofBuf`: a `cast` each way). Read back with the untyped result lemmas, every
  intermediate value comes out wrapped in such a pair of casts, and a term with a cast at its head above a large
  operation is expensive to compare with anything: the comparison opens the operation before it opens the cast.

  So read a typed reference AT ITS TYPE: `read x V` is `V` at `x`'s buffer, moved to `T`. Then every typed builder has a
  result lemma with no cast in it — `read y` of a `TRef.binary a b y f` is `f (read a V) (read b V)` — because moving a value
  to the buffer's type and back is the identity for ANY typed reference (`ofBuf_toBuf`: by `subst` of the reference's
  type equation, no computation). At a literal reference `read (.of r) V = V r` by `rfl`, on a term with nothing under it.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Ty : BufTy}

/-- The contents of a typed reference's buffer, at the reference's type. -/
def read (x : TRef sig T) (V : Valuation τ sig Val) : T.Contents Val := x.ofBuf (V (Proc.devRef .tc x.ref))

/-- To the buffer's type and back is the identity, whatever the reference. -/
theorem ofBuf_toBuf (x : TRef sig T) (v : T.Contents Val) : x.ofBuf (x.toBuf (Val := Val) v) = v := by
  obtain ⟨r, h, h2, h3⟩ := x
  subst h
  rfl

/-! ## A typed builder's result at its own reference -/

theorem read_nullary (y : TRef sig Ty) (v : Ty.Contents Val) (V : Valuation τ sig Val) :
    read y ((no_index (TRef.nullary (τ := τ) y v)).result V) = v := by
  unfold read
  exact (congrArg y.ofBuf (nullary_result y.ref (y.toBuf v) y.dev V)).trans (ofBuf_toBuf y v)

theorem read_unary (x : TRef sig Tx) (y : TRef sig Ty) (f : Tx.Contents Val → Ty.Contents Val) (V : Valuation τ sig Val) :
    read y ((no_index (TRef.unary (τ := τ) x y f)).result V) = f (read x V) := by
  unfold read
  exact (congrArg y.ofBuf (unary_result x.ref y.ref (fun u => y.toBuf (f (x.ofBuf u))) x.dev y.dev V)).trans
    (ofBuf_toBuf y _)

theorem read_binary (a : TRef sig Ta) (b : TRef sig Tb) (y : TRef sig Ty)
    (f : Ta.Contents Val → Tb.Contents Val → Ty.Contents Val) (V : Valuation τ sig Val) :
    read y ((no_index (TRef.binary (τ := τ) a b y f)).result V) = f (read a V) (read b V) := by
  unfold read
  exact (congrArg y.ofBuf (binary_result a.ref b.ref y.ref (fun u v => y.toBuf (f (a.ofBuf u) (b.ofBuf v))) a.dev b.dev y.dev V)).trans
    (ofBuf_toBuf y _)

/-! ## … and at any other reference: what was there -/

theorem read_nullary_ne (z : TRef sig T) (y : TRef sig Ty) (v : Ty.Contents Val) (V : Valuation τ sig Val) (h : z.ref ≠ y.ref) :
    read z ((no_index (TRef.nullary (τ := τ) y v)).result V) = read z V := by
  unfold read
  exact congrArg z.ofBuf (nullary_result_ne (y := y.ref) (y.toBuf v) y.dev V h)

theorem read_unary_ne (z : TRef sig T) (x : TRef sig Tx) (y : TRef sig Ty) (f : Tx.Contents Val → Ty.Contents Val)
    (V : Valuation τ sig Val) (h : z.ref ≠ y.ref) :
    read z ((no_index (TRef.unary (τ := τ) x y f)).result V) = read z V := by
  unfold read
  exact congrArg z.ofBuf (unary_result_ne (x := x.ref) (y := y.ref) (fun u => y.toBuf (f (x.ofBuf u))) x.dev y.dev V h)

theorem read_binary_ne (z : TRef sig T) (a : TRef sig Ta) (b : TRef sig Tb) (y : TRef sig Ty)
    (f : Ta.Contents Val → Tb.Contents Val → Ty.Contents Val) (V : Valuation τ sig Val) (h : z.ref ≠ y.ref) :
    read z ((no_index (TRef.binary (τ := τ) a b y f)).result V) = read z V := by
  unfold read
  exact congrArg z.ofBuf (binary_result_ne (a := a.ref) (b := b.ref) (y := y.ref) (fun u v => y.toBuf (f (a.ofBuf u) (b.ofBuf v))) a.dev b.dev y.dev V h)

end Cert.TypedRead

end
-- ==== Proof.LibTypedReadSelect.lean ====
/-
  Reading a three-operand host operation's result through a typed reference, without transports.

  The companion of the nullary, unary and binary readings: an operation with a condition and two branches (a select)
  inside an outlined function moves its function to the result reference's own buffer type and back; read at the
  reference's type, its result is the function of the three operands read at theirs, and any other reference holds
  what it held.
-/
import proofs.«430718_j51926154608671_3_alg».proof.Proof.LibTypedRead

noncomputable section

namespace Cert.TypedRead

open Idealize.ShloMosaic Idealize.ShloMosaic.StableHlo

variable {τ : Topo} {sig : RefSig} {Val : EltTy → Type} {T Tc Ta Tb Ty : BufTy}

theorem read_ternary (c : TRef sig Tc) (a : TRef sig Ta) (b : TRef sig Tb) (y : TRef sig Ty)
    (f : Tc.Contents Val → Ta.Contents Val → Tb.Contents Val → Ty.Contents Val) (V : Valuation τ sig Val) :
    read y ((no_index (TRef.ternary (τ := τ) c a b y f)).result V) = f (read c V) (read a V) (read b V) := by
  unfold read
  exact (congrArg y.ofBuf (ternary_result c.ref a.ref b.ref y.ref
    (fun w u v => y.toBuf (f (c.ofBuf w) (a.ofBuf u) (b.ofBuf v))) c.dev a.dev b.dev y.dev V)).trans (ofBuf_toBuf y _)

theorem read_ternary_ne (z : TRef sig T) (c : TRef sig Tc) (a : TRef sig Ta) (b : TRef sig Tb) (y : TRef sig Ty)
    (f : Tc.Contents Val → Ta.Contents Val → Tb.Contents Val → Ty.Contents Val) (V : Valuation τ sig Val) (h : z.ref ≠ y.ref) :
    read z ((no_index (TRef.ternary (τ := τ) c a b y f)).result V) = read z V := by
  unfold read
  exact congrArg z.ofBuf (ternary_result_ne (c := c.ref) (a := a.ref) (b := b.ref) (y := y.ref)
    (fun w u v => y.toBuf (f (c.ofBuf w) (a.ofBuf u) (b.ofBuf v))) c.dev a.dev b.dev y.dev V h)

end Cert.TypedRead

end
-- ==== Proof.RefValue.lean ====
/-
  The reference's run, read back: its result array is the perceptron applied to the looked-up rows.
-/
import proofs.«430718_j51926154608671_3_alg».proof.ReferenceIdeal
import proofs.«430718_j51926154608671_3_alg».proof.Proof.Gen.ReferenceIdeal
import proofs.«430718_j51926154608671_3_alg».proof.Proof.Spec
import proofs.«430718_j51926154608671_3_alg».proof.Proof.LibTypedRead
import proofs.«430718_j51926154608671_3_alg».proof.Proof.LibTypedReadSelect
import Idealize.ShloMosaic.Lib.ValueIdx
import Idealize.ShloMosaic.Lib.StableHlo.Run
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The program as one line of operations -/

/-- The row lookup's operations, in order: the outlined function's body over the buffers of its one call, the select
    of the function it calls in its place. -/
abbrev lookupOps : List (HloOp τ sig (Elt F)) :=
  [ TRef.nullary (.of main_call0_c : TRef sig ⟨S_, .i32⟩) (constantI S_ 32 0#32),
    TRef.unary (.of main_call0_c : TRef sig ⟨S_, .i32⟩) (.of main_call0_v0 : TRef sig ⟨S32x576, .i32⟩) (broadcastInDim S32x576 ![] bcast_S_S32x576),
    TRef.binary (.of main_arg0 : TRef sig ⟨S32x576, .i32⟩) (.of main_call0_v0 : TRef sig ⟨S32x576, .i32⟩) (.of main_call0_v1 : TRef sig ⟨S32x576, .i1⟩) (cmpi .slt),
    TRef.nullary (.of main_call0_c_0 : TRef sig ⟨S_, .i32⟩) (constantI S_ 32 8192#32),
    TRef.unary (.of main_call0_c_0 : TRef sig ⟨S_, .i32⟩) (.of main_call0_v2 : TRef sig ⟨S32x576, .i32⟩) (broadcastInDim S32x576 ![] bcast_S_S32x576),
    TRef.binary (.of main_arg0 : TRef sig ⟨S32x576, .i32⟩) (.of main_call0_v2 : TRef sig ⟨S32x576, .i32⟩) (.of main_call0_v3 : TRef sig ⟨S32x576, .i32⟩) addi,
    TRef.ternary (.of main_call0_v1 : TRef sig ⟨S32x576, .i1⟩) (.of main_call0_v3 : TRef sig ⟨S32x576, .i32⟩) (.of main_arg0 : TRef sig ⟨S32x576, .i32⟩) (.of main_call0_v4 : TRef sig ⟨S32x576, .i32⟩) select,
    TRef.unary (.of main_call0_v4 : TRef sig ⟨S32x576, .i32⟩) (.of main_call0_v5 : TRef sig ⟨S32x576x1, .i32⟩) (broadcastInDim S32x576x1 ![0, 1] bcast_S32x576_S32x576x1_0_1),
    TRef.nullary (.of main_call0_c_1 : TRef sig ⟨S1, .i32⟩) (constantI S1 32 8191#32),
    TRef.nullary (.of main_call0_c_2 : TRef sig ⟨S_, .i32⟩) (constantI S_ 32 0#32),
    TRef.unary (.of main_call0_c_2 : TRef sig ⟨S_, .i32⟩) (.of main_call0_v6 : TRef sig ⟨S32x576x1, .i32⟩) (broadcastInDim S32x576x1 ![] bcast_S_S32x576x1),
    TRef.binary (.of main_call0_v5 : TRef sig ⟨S32x576x1, .i32⟩) (.of main_call0_v6 : TRef sig ⟨S32x576x1, .i32⟩) (.of main_call0_v7 : TRef sig ⟨S32x576x1, .i1⟩) (cmpi .sge),
    TRef.unary (.of main_call0_c_1 : TRef sig ⟨S1, .i32⟩) (.of main_call0_v8 : TRef sig ⟨S1x1x1, .i32⟩) (broadcastInDim S1x1x1 ![2] bcast_S1_S1x1x1_2),
    TRef.unary (.of main_call0_v8 : TRef sig ⟨S1x1x1, .i32⟩) (.of main_call0_v9 : TRef sig ⟨S32x576x1, .i32⟩) (broadcastInDim S32x576x1 ![0, 1, 2] bcast_S1x1x1_S32x576x1_0_1_2),
    TRef.binary (.of main_call0_v5 : TRef sig ⟨S32x576x1, .i32⟩) (.of main_call0_v9 : TRef sig ⟨S32x576x1, .i32⟩) (.of main_call0_v10 : TRef sig ⟨S32x576x1, .i1⟩) (cmpi .sle),
    TRef.binary (.of main_call0_v7 : TRef sig ⟨S32x576x1, .i1⟩) (.of main_call0_v10 : TRef sig ⟨S32x576x1, .i1⟩) (.of main_call0_v11 : TRef sig ⟨S32x576x1, .i1⟩) andi,
    TRef.nullary (.of main_call0_c_3 : TRef sig ⟨S_, .i1⟩) (constantI S_ 1 1#1),
    TRef.binary (.of main_call0_v11 : TRef sig ⟨S32x576x1, .i1⟩) (.of main_call0_c_3 : TRef sig ⟨S_, .i1⟩) (.of main_call0_v12 : TRef sig ⟨S32x576, .i1⟩) (fun x v => Host.reduce IntOp.andi x v reducesTo_S32x576x1_S32x576_d2 h_S_),
    TRef.binary (.of main_arg1 : TRef sig ⟨S8192x1024, .f32⟩) (.of main_call0_v5 : TRef sig ⟨S32x576x1, .i32⟩) (.of main_call0_v13 : TRef sig ⟨S32x576x1024, .f32⟩) (fun x i => Host.gather gather_S8192x1024_S32x576x1_S32x576x1024_2_0_n_n_0_2_11024 x i),
    TRef.unary (.of main_call0_v12 : TRef sig ⟨S32x576, .i1⟩) (.of main_call0_v14 : TRef sig ⟨S32x576x1024, .i1⟩) (broadcastInDim S32x576x1024 ![0, 1] bcast_S32x576_S32x576x1024_0_1),
    TRef.nullary (.of main_call0_cst : TRef sig ⟨S_, .f32⟩) (constant S_ .f32 0x7FC00000#32),
    TRef.unary (.of main_call0_cst : TRef sig ⟨S_, .f32⟩) (.of main_call0_v15 : TRef sig ⟨S32x576x1024, .f32⟩) (broadcastInDim S32x576x1024 ![] bcast_S_S32x576x1024),
    TRef.ternary (.of main_call0_v14 : TRef sig ⟨S32x576x1024, .i1⟩) (.of main_call0_v13 : TRef sig ⟨S32x576x1024, .f32⟩) (.of main_call0_v15 : TRef sig ⟨S32x576x1024, .f32⟩) (.of main_v0 : TRef sig ⟨S32x576x1024, .f32⟩) select ]

/-- The perceptron's operations, in order. -/
abbrev mlpOps : List (HloOp τ sig (Elt F)) :=
  [ binary main_v0 main_arg2 main_v1 ((fun l r => Host.dotGeneral dot_S32x576x1024_S1024x4096_S32x576x4096_2_0_01_1_n_n none l r) : (⟨S32x576x1024, .f32⟩ : BufTy).Contents (Elt F) → (⟨S1024x4096, .f32⟩ : BufTy).Contents (Elt F) → (⟨S32x576x4096, .f32⟩ : BufTy).Contents (Elt F)),
    unary main_arg3 main_v2 (broadcastInDim S1x1x4096 ![2] bcast_S4096_S1x1x4096_2 : (⟨S4096, .f32⟩ : BufTy).Contents (Elt F) → (⟨S1x1x4096, .f32⟩ : BufTy).Contents (Elt F)),
    unary main_v2 main_v3 (broadcastInDim S32x576x4096 ![0, 1, 2] bcast_S1x1x4096_S32x576x4096_0_1_2 : (⟨S1x1x4096, .f32⟩ : BufTy).Contents (Elt F) → (⟨S32x576x4096, .f32⟩ : BufTy).Contents (Elt F)),
    binary main_v1 main_v3 main_v4 (addf : (⟨S32x576x4096, .f32⟩ : BufTy).Contents (Elt F) → (⟨S32x576x4096, .f32⟩ : BufTy).Contents (Elt F) → (⟨S32x576x4096, .f32⟩ : BufTy).Contents (Elt F)),
    binary main_v4 main_v4 main_v5 (mulf : (⟨S32x576x4096, .f32⟩ : BufTy).Contents (Elt F) → (⟨S32x576x4096, .f32⟩ : BufTy).Contents (Elt F) → (⟨S32x576x4096, .f32⟩ : BufTy).Contents (Elt F)),
    binary main_v5 main_v4 main_v6 (mulf : (⟨S32x576x4096, .f32⟩ : BufTy).Contents (Elt F) → (⟨S32x576x4096, .f32⟩ : BufTy).Contents (Elt F) → (⟨S32x576x4096, .f32⟩ : BufTy).Contents (Elt F)),
    nullary main_cst (constant S_ .f32 0x3D372713#32),
    unary main_cst main_v7 (broadcastInDim S32x576x4096 ![] bcast_S_S32x576x4096 : (⟨S_, .f32⟩ : BufTy).Contents (Elt F) → (⟨S32x576x4096, .f32⟩ : BufTy).Contents (Elt F)),
    binary main_v7 main_v6 main_v8 (mulf : (⟨S32x576x4096, .f32⟩ : BufTy).Contents (Elt F) → (⟨S32x576x4096, .f32⟩ : BufTy).Contents (Elt F) → (⟨S32x576x4096, .f32⟩ : BufTy).Contents (Elt F)),
    binary main_v4 main_v8 main_v9 (addf : (⟨S32x576x4096, .f32⟩ : BufTy).Contents (Elt F) → (⟨S32x576x4096, .f32⟩ : BufTy).Contents (Elt F) → (⟨S32x576x4096, .f32⟩ : BufTy).Contents (Elt F)),
    nullary main_cst_0 (constant S_ .f32 0x3F4C422A#32),
    unary main_cst_0 main_v10 (broadcastInDim S32x576x4096 ![] bcast_S_S32x576x4096 : (⟨S_, .f32⟩ : BufTy).Contents (Elt F) → (⟨S32x576x4096, .f32⟩ : BufTy).Contents (Elt F)),
    binary main_v10 main_v9 main_v11 (mulf : (⟨S32x576x4096, .f32⟩ : BufTy).Contents (Elt F) → (⟨S32x576x4096, .f32⟩ : BufTy).Contents (Elt F) → (⟨S32x576x4096, .f32⟩ : BufTy).Contents (Elt F)),
    unary main_v11 main_v12 (Host.tanh : (⟨S32x576x4096, .f32⟩ : BufTy).Contents (Elt F) → (⟨S32x576x4096, .f32⟩ : BufTy).Contents (Elt F)),
    nullary main_cst_1 (constant S_ .f32 0x3F800000#32),
    unary main_cst_1 main_v13 (broadcastInDim S32x576x4096 ![] bcast_S_S32x576x4096 : (⟨S_, .f32⟩ : BufTy).Contents (Elt F) → (⟨S32x576x4096, .f32⟩ : BufTy).Contents (Elt F)),
    binary main_v13 main_v12 main_v14 (addf : (⟨S32x576x4096, .f32⟩ : BufTy).Contents (Elt F) → (⟨S32x576x4096, .f32⟩ : BufTy).Contents (Elt F) → (⟨S32x576x4096, .f32⟩ : BufTy).Contents (Elt F)),
    nullary main_cst_2 (constant S_ .f32 0x3F000000#32),
    unary main_cst_2 main_v15 (broadcastInDim S32x576x4096 ![] bcast_S_S32x576x4096 : (⟨S_, .f32⟩ : BufTy).Contents (Elt F) → (⟨S32x576x4096, .f32⟩ : BufTy).Contents (Elt F)),
    binary main_v15 main_v14 main_v16 (mulf : (⟨S32x576x4096, .f32⟩ : BufTy).Contents (Elt F) → (⟨S32x576x4096, .f32⟩ : BufTy).Contents (Elt F) → (⟨S32x576x4096, .f32⟩ : BufTy).Contents (Elt F)),
    binary main_v4 main_v16 main_v17 (mulf : (⟨S32x576x4096, .f32⟩ : BufTy).Contents (Elt F) → (⟨S32x576x4096, .f32⟩ : BufTy).Contents (Elt F) → (⟨S32x576x4096, .f32⟩ : BufTy).Contents (Elt F)),
    binary main_v17 main_arg4 main_v18 ((fun l r => Host.dotGeneral dot_S32x576x4096_S4096x1024_S32x576x1024_2_0_01_1_n_n none l r) : (⟨S32x576x4096, .f32⟩ : BufTy).Contents (Elt F) → (⟨S4096x1024, .f32⟩ : BufTy).Contents (Elt F) → (⟨S32x576x1024, .f32⟩ : BufTy).Contents (Elt F)),
    unary main_arg5 main_v19 (broadcastInDim S1x1x1024 ![2] bcast_S1024_S1x1x1024_2 : (⟨S1024, .f32⟩ : BufTy).Contents (Elt F) → (⟨S1x1x1024, .f32⟩ : BufTy).Contents (Elt F)),
    unary main_v19 main_v20 (broadcastInDim S32x576x1024 ![0, 1, 2] bcast_S1x1x1024_S32x576x1024_0_1_2 : (⟨S1x1x1024, .f32⟩ : BufTy).Contents (Elt F) → (⟨S32x576x1024, .f32⟩ : BufTy).Contents (Elt F)),
    binary main_v18 main_v20 main_v21 (addf : (⟨S32x576x1024, .f32⟩ : BufTy).Contents (Elt F) → (⟨S32x576x1024, .f32⟩ : BufTy).Contents (Elt F) → (⟨S32x576x1024, .f32⟩ : BufTy).Contents (Elt F)) ]

/-- The whole line. -/
abbrev ops : List (HloOp τ sig (Elt F)) :=
  [ TRef.nullary (.of main_call0_c : TRef sig ⟨S_, .i32⟩) (constantI S_ 32 0#32),
    TRef.unary (.of main_call0_c : TRef sig ⟨S_, .i32⟩) (.of main_call0_v0 : TRef sig ⟨S32x576, .i32⟩) (broadcastInDim S32x576 ![] bcast_S_S32x576),
    TRef.binary (.of main_arg0 : TRef sig ⟨S32x576, .i32⟩) (.of main_call0_v0 : TRef sig ⟨S32x576, .i32⟩) (.of main_call0_v1 : TRef sig ⟨S32x576, .i1⟩) (cmpi .slt),
    TRef.nullary (.of main_call0_c_0 : TRef sig ⟨S_, .i32⟩) (constantI S_ 32 8192#32),
    TRef.unary (.of main_call0_c_0 : TRef sig ⟨S_, .i32⟩) (.of main_call0_v2 : TRef sig ⟨S32x576, .i32⟩) (broadcastInDim S32x576 ![] bcast_S_S32x576),
    TRef.binary (.of main_arg0 : TRef sig ⟨S32x576, .i32⟩) (.of main_call0_v2 : TRef sig ⟨S32x576, .i32⟩) (.of main_call0_v3 : TRef sig ⟨S32x576, .i32⟩) addi,
    TRef.ternary (.of main_call0_v1 : TRef sig ⟨S32x576, .i1⟩) (.of main_call0_v3 : TRef sig ⟨S32x576, .i32⟩) (.of main_arg0 : TRef sig ⟨S32x576, .i32⟩) (.of main_call0_v4 : TRef sig ⟨S32x576, .i32⟩) select,
    TRef.unary (.of main_call0_v4 : TRef sig ⟨S32x576, .i32⟩) (.of main_call0_v5 : TRef sig ⟨S32x576x1, .i32⟩) (broadcastInDim S32x576x1 ![0, 1] bcast_S32x576_S32x576x1_0_1),
    TRef.nullary (.of main_call0_c_1 : TRef sig ⟨S1, .i32⟩) (constantI S1 32 8191#32),
    TRef.nullary (.of main_call0_c_2 : TRef sig ⟨S_, .i32⟩) (constantI S_ 32 0#32),
    TRef.unary (.of main_call0_c_2 : TRef sig ⟨S_, .i32⟩) (.of main_call0_v6 : TRef sig ⟨S32x576x1, .i32⟩) (broadcastInDim S32x576x1 ![] bcast_S_S32x576x1),
    TRef.binary (.of main_call0_v5 : TRef sig ⟨S32x576x1, .i32⟩) (.of main_call0_v6 : TRef sig ⟨S32x576x1, .i32⟩) (.of main_call0_v7 : TRef sig ⟨S32x576x1, .i1⟩) (cmpi .sge),
    TRef.unary (.of main_call0_c_1 : TRef sig ⟨S1, .i32⟩) (.of main_call0_v8 : TRef sig ⟨S1x1x1, .i32⟩) (broadcastInDim S1x1x1 ![2] bcast_S1_S1x1x1_2),
    TRef.unary (.of main_call0_v8 : TRef sig ⟨S1x1x1, .i32⟩) (.of main_call0_v9 : TRef sig ⟨S32x576x1, .i32⟩) (broadcastInDim S32x576x1 ![0, 1, 2] bcast_S1x1x1_S32x576x1_0_1_2),
    TRef.binary (.of main_call0_v5 : TRef sig ⟨S32x576x1, .i32⟩) (.of main_call0_v9 : TRef sig ⟨S32x576x1, .i32⟩) (.of main_call0_v10 : TRef sig ⟨S32x576x1, .i1⟩) (cmpi .sle),
    TRef.binary (.of main_call0_v7 : TRef sig ⟨S32x576x1, .i1⟩) (.of main_call0_v10 : TRef sig ⟨S32x576x1, .i1⟩) (.of main_call0_v11 : TRef sig ⟨S32x576x1, .i1⟩) andi,
    TRef.nullary (.of main_call0_c_3 : TRef sig ⟨S_, .i1⟩) (constantI S_ 1 1#1),
    TRef.binary (.of main_call0_v11 : TRef sig ⟨S32x576x1, .i1⟩) (.of main_call0_c_3 : TRef sig ⟨S_, .i1⟩) (.of main_call0_v12 : TRef sig ⟨S32x576, .i1⟩) (fun x v => Host.reduce IntOp.andi x v reducesTo_S32x576x1_S32x576_d2 h_S_),
    TRef.binary (.of main_arg1 : TRef sig ⟨S8192x1024, .f32⟩) (.of main_call0_v5 : TRef sig ⟨S32x576x1, .i32⟩) (.of main_call0_v13 : TRef sig ⟨S32x576x1024, .f32⟩) (fun x i => Host.gather gather_S8192x1024_S32x576x1_S32x576x1024_2_0_n_n_0_2_11024 x i),
    TRef.unary (.of main_call0_v12 : TRef sig ⟨S32x576, .i1⟩) (.of main_call0_v14 : TRef sig ⟨S32x576x1024, .i1⟩) (broadcastInDim S32x576x1024 ![0, 1] bcast_S32x576_S32x576x1024_0_1),
    TRef.nullary (.of main_call0_cst : TRef sig ⟨S_, .f32⟩) (constant S_ .f32 0x7FC00000#32),
    TRef.unary (.of main_call0_cst : TRef sig ⟨S_, .f32⟩) (.of main_call0_v15 : TRef sig ⟨S32x576x1024, .f32⟩) (broadcastInDim S32x576x1024 ![] bcast_S_S32x576x1024),
    TRef.ternary (.of main_call0_v14 : TRef sig ⟨S32x576x1024, .i1⟩) (.of main_call0_v13 : TRef sig ⟨S32x576x1024, .f32⟩) (.of main_call0_v15 : TRef sig ⟨S32x576x1024, .f32⟩) (.of main_v0 : TRef sig ⟨S32x576x1024, .f32⟩) select,
    binary main_v0 main_arg2 main_v1 ((fun l r => Host.dotGeneral dot_S32x576x1024_S1024x4096_S32x576x4096_2_0_01_1_n_n none l r) : (⟨S32x576x1024, .f32⟩ : BufTy).Contents (Elt F) → (⟨S1024x4096, .f32⟩ : BufTy).Contents (Elt F) → (⟨S32x576x4096, .f32⟩ : BufTy).Contents (Elt F)),
    unary main_arg3 main_v2 (broadcastInDim S1x1x4096 ![2] bcast_S4096_S1x1x4096_2 : (⟨S4096, .f32⟩ : BufTy).Contents (Elt F) → (⟨S1x1x4096, .f32⟩ : BufTy).Contents (Elt F)),
    unary main_v2 main_v3 (broadcastInDim S32x576x4096 ![0, 1, 2] bcast_S1x1x4096_S32x576x4096_0_1_2 : (⟨S1x1x4096, .f32⟩ : BufTy).Contents (Elt F) → (⟨S32x576x4096, .f32⟩ : BufTy).Contents (Elt F)),
    binary main_v1 main_v3 main_v4 (addf : (⟨S32x576x4096, .f32⟩ : BufTy).Contents (Elt F) → (⟨S32x576x4096, .f32⟩ : BufTy).Contents (Elt F) → (⟨S32x576x4096, .f32⟩ : BufTy).Contents (Elt F)),
    binary main_v4 main_v4 main_v5 (mulf : (⟨S32x576x4096, .f32⟩ : BufTy).Contents (Elt F) → (⟨S32x576x4096, .f32⟩ : BufTy).Contents (Elt F) → (⟨S32x576x4096, .f32⟩ : BufTy).Contents (Elt F)),
    binary main_v5 main_v4 main_v6 (mulf : (⟨S32x576x4096, .f32⟩ : BufTy).Contents (Elt F) → (⟨S32x576x4096, .f32⟩ : BufTy).Contents (Elt F) → (⟨S32x576x4096, .f32⟩ : BufTy).Contents (Elt F)),
    nullary main_cst (constant S_ .f32 0x3D372713#32),
    unary main_cst main_v7 (broadcastInDim S32x576x4096 ![] bcast_S_S32x576x4096 : (⟨S_, .f32⟩ : BufTy).Contents (Elt F) → (⟨S32x576x4096, .f32⟩ : BufTy).Contents (Elt F)),
    binary main_v7 main_v6 main_v8 (mulf : (⟨S32x576x4096, .f32⟩ : BufTy).Contents (Elt F) → (⟨S32x576x4096, .f32⟩ : BufTy).Contents (Elt F) → (⟨S32x576x4096, .f32⟩ : BufTy).Contents (Elt F)),
    binary main_v4 main_v8 main_v9 (addf : (⟨S32x576x4096, .f32⟩ : BufTy).Contents (Elt F) → (⟨S32x576x4096, .f32⟩ : BufTy).Contents (Elt F) → (⟨S32x576x4096, .f32⟩ : BufTy).Contents (Elt F)),
    nullary main_cst_0 (constant S_ .f32 0x3F4C422A#32),
    unary main_cst_0 main_v10 (broadcastInDim S32x576x4096 ![] bcast_S_S32x576x4096 : (⟨S_, .f32⟩ : BufTy).Contents (Elt F) → (⟨S32x576x4096, .f32⟩ : BufTy).Contents (Elt F)),
    binary main_v10 main_v9 main_v11 (mulf : (⟨S32x576x4096, .f32⟩ : BufTy).Contents (Elt F) → (⟨S32x576x4096, .f32⟩ : BufTy).Contents (Elt F) → (⟨S32x576x4096, .f32⟩ : BufTy).Contents (Elt F)),
    unary main_v11 main_v12 (Host.tanh : (⟨S32x576x4096, .f32⟩ : BufTy).Contents (Elt F) → (⟨S32x576x4096, .f32⟩ : BufTy).Contents (Elt F)),
    nullary main_cst_1 (constant S_ .f32 0x3F800000#32),
    unary main_cst_1 main_v13 (broadcastInDim S32x576x4096 ![] bcast_S_S32x576x4096 : (⟨S_, .f32⟩ : BufTy).Contents (Elt F) → (⟨S32x576x4096, .f32⟩ : BufTy).Contents (Elt F)),
    binary main_v13 main_v12 main_v14 (addf : (⟨S32x576x4096, .f32⟩ : BufTy).Contents (Elt F) → (⟨S32x576x4096, .f32⟩ : BufTy).Contents (Elt F) → (⟨S32x576x4096, .f32⟩ : BufTy).Contents (Elt F)),
    nullary main_cst_2 (constant S_ .f32 0x3F000000#32),
    unary main_cst_2 main_v15 (broadcastInDim S32x576x4096 ![] bcast_S_S32x576x4096 : (⟨S_, .f32⟩ : BufTy).Contents (Elt F) → (⟨S32x576x4096, .f32⟩ : BufTy).Contents (Elt F)),
    binary main_v15 main_v14 main_v16 (mulf : (⟨S32x576x4096, .f32⟩ : BufTy).Contents (Elt F) → (⟨S32x576x4096, .f32⟩ : BufTy).Contents (Elt F) → (⟨S32x576x4096, .f32⟩ : BufTy).Contents (Elt F)),
    binary main_v4 main_v16 main_v17 (mulf : (⟨S32x576x4096, .f32⟩ : BufTy).Contents (Elt F) → (⟨S32x576x4096, .f32⟩ : BufTy).Contents (Elt F) → (⟨S32x576x4096, .f32⟩ : BufTy).Contents (Elt F)),
    binary main_v17 main_arg4 main_v18 ((fun l r => Host.dotGeneral dot_S32x576x4096_S4096x1024_S32x576x1024_2_0_01_1_n_n none l r) : (⟨S32x576x4096, .f32⟩ : BufTy).Contents (Elt F) → (⟨S4096x1024, .f32⟩ : BufTy).Contents (Elt F) → (⟨S32x576x1024, .f32⟩ : BufTy).Contents (Elt F)),
    unary main_arg5 main_v19 (broadcastInDim S1x1x1024 ![2] bcast_S1024_S1x1x1024_2 : (⟨S1024, .f32⟩ : BufTy).Contents (Elt F) → (⟨S1x1x1024, .f32⟩ : BufTy).Contents (Elt F)),
    unary main_v19 main_v20 (broadcastInDim S32x576x1024 ![0, 1, 2] bcast_S1x1x1024_S32x576x1024_0_1_2 : (⟨S1x1x1024, .f32⟩ : BufTy).Contents (Elt F) → (⟨S32x576x1024, .f32⟩ : BufTy).Contents (Elt F)),
    binary main_v18 main_v20 main_v21 (addf : (⟨S32x576x1024, .f32⟩ : BufTy).Contents (Elt F) → (⟨S32x576x1024, .f32⟩ : BufTy).Contents (Elt F) → (⟨S32x576x1024, .f32⟩ : BufTy).Contents (Elt F)) ]

theorem ops_eq : (ops : List (HloOp τ sig (Elt F))) = lookupOps ++ mlpOps := rfl

set_option maxRecDepth 2048 in
/-- @main is that line: the two functions unfolded at their calls, both sides are one chain of steps once the
    sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

/-- Every weakly fair execution of @main terminates with each buffer at the fold of the line over the launch
    contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The first stretch: the looked-up rows -/

section Lookup

open Cert.TypedRead

/-- After the lookup's operations the call's result buffer holds the rows of the specification's lookup: each typed
    operation read at its own type, what is left is the specification's own chain of pure operations. -/
theorem lookup_eq (V : Valuation τ sig (Elt F)) :
    after lookupOps V (main_v0 : DevRef τ sig)
      = Cert.Mlp.lookup (V (main_arg1 : DevRef τ sig)) (V (main_arg0 : DevRef τ sig)) := by
  show read (.of main_v0 : TRef sig ⟨S32x576x1024, .f32⟩) (after lookupOps V) = _
  simp (disch := decide) only [after_cons, after_nil, read_nullary, read_unary, read_binary, read_ternary,
    read_nullary_ne, read_unary_ne, read_binary_ne, read_ternary_ne]
  rfl

end Lookup

/-! ## Rows times a matrix, at an index -/

section Dot

open scoped BigOperators
open Idealize.ShloMosaic.ValueIdx

variable {A B K N : Nat} {φ₁ φ₂ : FTy}

/-- The dimension numbers of rows times a matrix: the last axis of a rank-3 array contracted with the first axis of
    a rank-2 one, no batch axis. -/
abbrev rowsDims (w : DotDims.WF ⟨3, ![A, B, K]⟩ ⟨2, ![K, N]⟩ ⟨3, ![A, B, N]⟩ [2] [0] [0, 1] [1] [] []) :
    DotDims ⟨3, ![A, B, K]⟩ ⟨2, ![K, N]⟩ ⟨3, ![A, B, N]⟩ := ⟨[2], [0], [0, 1], [1], [], [], w⟩

/-- The left operand is read at the result's row and the contracted coordinate. -/
theorem rows_lhsIdx (w : DotDims.WF ⟨3, ![A, B, K]⟩ ⟨2, ![K, N]⟩ ⟨3, ![A, B, N]⟩ [2] [0] [0, 1] [1] [] [])
    (a : Fin A) (b : Fin B) (n : Fin N) (c : Fin K) :
    (rowsDims w).lhsIdx (ix3 a b n) ((contrEquiv1 (rowsDims w) K rfl rfl).symm c) = ix3 a b c := by
  have hc := contrEquiv1_symm_val (rowsDims w) K rfl rfl c
  funext ax; apply Fin.ext
  match ax with
  | ⟨0, _⟩ => rfl
  | ⟨1, _⟩ => rfl
  | ⟨2, _⟩ => exact ((rowsDims w).lhsIdx_val_of_single rfl _ _).trans hc

/-- The right operand is read at the contracted coordinate and the result's column. -/
theorem rows_rhsIdx (w : DotDims.WF ⟨3, ![A, B, K]⟩ ⟨2, ![K, N]⟩ ⟨3, ![A, B, N]⟩ [2] [0] [0, 1] [1] [] [])
    (a : Fin A) (b : Fin B) (n : Fin N) (c : Fin K) :
    (rowsDims w).rhsIdx (ix3 a b n) ((contrEquiv1 (rowsDims w) K rfl rfl).symm c) = ix2 c n := by
  have hc := contrEquiv1_symm_val (rowsDims w) K rfl rfl c
  funext ax; apply Fin.ext
  match ax with
  | ⟨0, _⟩ => exact ((rowsDims w).rhsIdx_val_of_single rfl _ _).trans hc
  | ⟨1, _⟩ => rfl

/-- Rows times a matrix, read at an index: the sum over the contracted coordinate of the products of the entries. -/
theorem dotGeneral_rows_apply (w : DotDims.WF ⟨3, ![A, B, K]⟩ ⟨2, ![K, N]⟩ ⟨3, ![A, B, N]⟩ [2] [0] [0, 1] [1] [] [])
    (prec : Option ContractPrecision) (X : FVec Ideal ⟨3, ![A, B, K]⟩ φ₁) (W : FVec Ideal ⟨2, ![K, N]⟩ φ₂)
    (a : Fin A) (b : Fin B) (n : Fin N) :
    Host.dotGeneral (rowsDims w) prec X W (ix3 a b n) = ∑ c : Fin K, X (ix3 a b c) * W (ix2 c n) := by
  show FloatOps.dotGeneral _ prec _ X W (ix3 a b n) = _
  rw [Ideal.dotGeneral_apply, ← Equiv.sum_comp (contrEquiv1 (rowsDims w) K rfl rfl).symm]
  refine Finset.sum_congr rfl fun c _ => ?_
  rw [rows_lhsIdx, rows_rhsIdx]

end Dot

/-! ## The second stretch: the perceptron -/

section Mlp

open scoped BigOperators
open Idealize.ShloMosaic.ValueIdx

/-- The first layer before its activation: the rows times the first matrix, the first bias laid along every row. -/
def pre (q : FVec F S32x576x1024 .f32) (W1 : FVec F S1024x4096 .f32) (b1 : FVec F S4096 .f32) : FVec F S32x576x4096 .f32 :=
  addf (Host.dotGeneral dot_S32x576x1024_S1024x4096_S32x576x4096_2_0_01_1_n_n none q W1)
    (broadcastInDim S32x576x4096 ![0, 1, 2] bcast_S1x1x4096_S32x576x4096_0_1_2
      (broadcastInDim S1x1x4096 ![2] bcast_S4096_S1x1x4096_2 b1))

/-- The activation as the program computes it, entry by entry: x · (½ · (1 + tanh (c₂ · (x + c₁ · ((x · x) · x))))). -/
def act (x : FVec F S32x576x4096 .f32) : FVec F S32x576x4096 .f32 :=
  mulf x (mulf (broadcastInDim S32x576x4096 ![] bcast_S_S32x576x4096 (constant S_ .f32 0x3F000000#32))
    (addf (broadcastInDim S32x576x4096 ![] bcast_S_S32x576x4096 (constant S_ .f32 0x3F800000#32))
      (Host.tanh (mulf (broadcastInDim S32x576x4096 ![] bcast_S_S32x576x4096 (constant S_ .f32 0x3F4C422A#32))
        (addf x (mulf (broadcastInDim S32x576x4096 ![] bcast_S_S32x576x4096 (constant S_ .f32 0x3D372713#32))
          (mulf (mulf x x) x)))))))

/-- The second layer: the hidden rows times the second matrix, the second bias laid along every row. -/
def out (h : FVec F S32x576x4096 .f32) (W2 : FVec F S4096x1024 .f32) (b2 : FVec F S1024 .f32) : FVec F S32x576x1024 .f32 :=
  addf (Host.dotGeneral dot_S32x576x4096_S4096x1024_S32x576x1024_2_0_01_1_n_n none h W2)
    (broadcastInDim S32x576x1024 ![0, 1, 2] bcast_S1x1x1024_S32x576x1024_0_1_2
      (broadcastInDim S1x1x1024 ![2] bcast_S1024_S1x1x1024_2 b2))

/-- After the perceptron's operations the result buffer holds the two layers applied to what the lookup's buffer held. -/
theorem mlp_eq (V : Valuation τ sig (Elt F)) :
    after mlpOps V (main_v21 : DevRef τ sig)
      = out (act (pre (V (main_v0 : DevRef τ sig)) (V (main_arg2 : DevRef τ sig)) (V (main_arg3 : DevRef τ sig))))
          (V (main_arg4 : DevRef τ sig)) (V (main_arg5 : DevRef τ sig)) := by
  after_results_simp
  rfl

/-- The first layer at an index: the sum over the row, plus the bias at the column. -/
theorem pre_apply (q : FVec Ideal S32x576x1024 .f32) (W1 : FVec Ideal S1024x4096 .f32) (b1 : FVec Ideal S4096 .f32)
    (b : Fin 32) (t : Fin 576) (h : Fin 4096) :
    pre q W1 b1 (ix3 b t h) = (∑ d : Fin 1024, q (ix3 b t d) * W1 (ix2 d h)) + b1 (ix1 h) := by
  have hd := dotGeneral_rows_apply dot_S32x576x1024_S1024x4096_S32x576x4096_2_0_01_1_n_n_wf none q W1 b t h
  have hb : broadcastInDim S32x576x4096 ![0, 1, 2] bcast_S1x1x4096_S32x576x4096_0_1_2
      (broadcastInDim S1x1x4096 ![2] bcast_S4096_S1x1x4096_2 b1) (ix3 b t h) = b1 (ix1 h) :=
    congrArg b1 (funext fun a => match a with | ⟨0, _⟩ => rfl)
  exact congrArg₂ (· + ·) hd hb

/-- The second layer at an index. -/
theorem out_apply (x : FVec Ideal S32x576x4096 .f32) (W2 : FVec Ideal S4096x1024 .f32) (b2 : FVec Ideal S1024 .f32)
    (b : Fin 32) (t : Fin 576) (o : Fin 1024) :
    out x W2 b2 (ix3 b t o) = (∑ h : Fin 4096, x (ix3 b t h) * W2 (ix2 h o)) + b2 (ix1 o) := by
  have hd := dotGeneral_rows_apply dot_S32x576x4096_S4096x1024_S32x576x1024_2_0_01_1_n_n_wf none x W2 b t o
  have hb : broadcastInDim S32x576x1024 ![0, 1, 2] bcast_S1x1x1024_S32x576x1024_0_1_2
      (broadcastInDim S1x1x1024 ![2] bcast_S1024_S1x1x1024_2 b2) (ix3 b t o) = b2 (ix1 o) :=
    congrArg b2 (funext fun a => match a with | ⟨0, _⟩ => rfl)
  exact congrArg₂ (· + ·) hd hb

/-- The activation at an index is the specification's: the program cubes as (x · x) · x, the specification as
    x · (x · x). -/
theorem act_apply (x : FVec Ideal S32x576x4096 .f32) (i : S32x576x4096.Idx) : act x i = Cert.Mlp.gelu (x i) := by
  show x i * (Ideal.ofBits .f32 0x3F000000#32 * (Ideal.ofBits .f32 0x3F800000#32
    + Ideal.tanh (Ideal.ofBits .f32 0x3F4C422A#32 * (x i + Ideal.ofBits .f32 0x3D372713#32 * (x i * x i * x i)))))
    = x i * (Ideal.ofBits .f32 0x3F000000#32 * (Ideal.ofBits .f32 0x3F800000#32
      + Ideal.tanh (Ideal.ofBits .f32 0x3F4C422A#32 * (x i + Ideal.ofBits .f32 0x3D372713#32 * (x i * (x i * x i))))))
  rw [mul_comm (x i * x i) (x i)]

/-- The two layers are the specification's perceptron, entry by entry. -/
theorem out_act_pre (q : FVec Ideal S32x576x1024 .f32) (W1 : FVec Ideal S1024x4096 .f32) (b1 : FVec Ideal S4096 .f32)
    (W2 : FVec Ideal S4096x1024 .f32) (b2 : FVec Ideal S1024 .f32) :
    out (act (pre q W1 b1)) W2 b2 = Cert.Mlp.result q W1 b1 W2 b2 := by
  funext i
  obtain ⟨b, t, o, rfl⟩ : ∃ (b : Fin 32) (t : Fin 576) (o : Fin 1024), i = ix3 b t o := ⟨i 0, i 1, i 2, eq_ix3 i⟩
  rw [Cert.Mlp.result_apply, out_apply]
  show _ = (∑ h : Fin 4096, Cert.Mlp.gelu ((∑ d : Fin 1024, q (ix3 b t d) * W1 (ix2 d h)) + b1 (ix1 h)) * W2 (ix2 h o))
    + b2 (ix1 o)
  refine congrArg (· + b2 (ix1 o)) (Finset.sum_congr rfl fun h _ => ?_)
  rw [act_apply, pre_apply]

end Mlp

/-! ## The whole line -/

section Whole

/-- The fold over two lines in a row is the second line's fold over the first's. -/
theorem after_two : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two l₁ l₂]

/-- No operation writes an argument. -/
theorem arg0_eq (V : Valuation τ sig (Elt F)) :
    after ops V (main_arg0 : DevRef τ sig) = V (main_arg0 : DevRef τ sig) := by after_results_simp
theorem arg1_eq (V : Valuation τ sig (Elt F)) :
    after ops V (main_arg1 : DevRef τ sig) = V (main_arg1 : DevRef τ sig) := by after_results_simp
theorem arg2_eq (V : Valuation τ sig (Elt F)) :
    after ops V (main_arg2 : DevRef τ sig) = V (main_arg2 : DevRef τ sig) := by after_results_simp
theorem arg3_eq (V : Valuation τ sig (Elt F)) :
    after ops V (main_arg3 : DevRef τ sig) = V (main_arg3 : DevRef τ sig) := by after_results_simp
theorem arg4_eq (V : Valuation τ sig (Elt F)) :
    after ops V (main_arg4 : DevRef τ sig) = V (main_arg4 : DevRef τ sig) := by after_results_simp
theorem arg5_eq (V : Valuation τ sig (Elt F)) :
    after ops V (main_arg5 : DevRef τ sig) = V (main_arg5 : DevRef τ sig) := by after_results_simp

/-- Through the lookup's operations the perceptron's arguments keep their contents. -/
theorem lookup_arg2 (V : Valuation τ sig (Elt F)) :
    after lookupOps V (main_arg2 : DevRef τ sig) = V (main_arg2 : DevRef τ sig) := by after_results_simp
theorem lookup_arg3 (V : Valuation τ sig (Elt F)) :
    after lookupOps V (main_arg3 : DevRef τ sig) = V (main_arg3 : DevRef τ sig) := by after_results_simp
theorem lookup_arg4 (V : Valuation τ sig (Elt F)) :
    after lookupOps V (main_arg4 : DevRef τ sig) = V (main_arg4 : DevRef τ sig) := by after_results_simp
theorem lookup_arg5 (V : Valuation τ sig (Elt F)) :
    after lookupOps V (main_arg5 : DevRef τ sig) = V (main_arg5 : DevRef τ sig) := by after_results_simp

/-- After the whole line the result buffer holds the specification's perceptron of the specification's lookup: the
    first stretch leaves the looked-up rows, the second reads them as an opaque array. -/
theorem result_eq (V : Valuation τ sig (Elt Ideal)) :
    after ops V (main_v21 : DevRef τ sig)
      = Cert.Mlp.result (Cert.Mlp.lookup (V (main_arg1 : DevRef τ sig)) (V (main_arg0 : DevRef τ sig)))
          (V (main_arg2 : DevRef τ sig)) (V (main_arg3 : DevRef τ sig)) (V (main_arg4 : DevRef τ sig))
          (V (main_arg5 : DevRef τ sig)) := by
  have h : after (ops (F := Ideal)) V = after mlpOps (after lookupOps V) := by rw [ops_eq, after_two]
  rw [h, mlp_eq, lookup_eq, lookup_arg2, lookup_arg3, lookup_arg4, lookup_arg5, out_act_pre]

end Whole

/-- Every weakly fair execution of the reference terminates with its result at the perceptron of the looked-up rows
    and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread Cert.ReferenceIdeal.nD Cert.ReferenceIdeal.τ).loc Cert.ReferenceIdeal.main_v21)
        = Cert.Mlp.result (Cert.Mlp.lookup (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg0)))
            (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) := by
  exact (θ_run defs _ _).mono (fun _ h c => ⟨(h c main_v21).trans (result_eq _), (h c main_arg0).trans (arg0_eq _),
    (h c main_arg1).trans (arg1_eq _), (h c main_arg2).trans (arg2_eq _), (h c main_arg3).trans (arg3_eq _),
    (h c main_arg4).trans (arg4_eq _), (h c main_arg5).trans (arg5_eq _)⟩) (run_ops m ρ)

end Cert.ReferenceIdeal.RefValue

end
-- ==== Proof.LibPlainDot.lean ====
/-
  A matrix product with one contracted axis, read at an entry.

  For dimension numbers that contract axis 1 of an [M, K] operand with axis 0 of a [K, N] operand, no batch axes, the
  rows of the first and the columns of the second kept in that order, the product accumulated into zero is, at entry
  (p, q) and on the extended reals, the sum over k : Fin K of lhs (p, k) · rhs (k, q). The library states the sum over the
  dimension numbers' own contraction index; here that index is identified with its one coordinate and the operands'
  indices are spelt by coordinates.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- A kept axis of the first operand reads the result index: axis 0 is result axis 0. -/
theorem lhs_row (lb : d.lhsBatch = []) (ln : d.lhsNonContracting = [0]) (j : (⟨2, ![M, N]⟩ : Shape).Idx) (k : d.contr.Idx) :
    (d.lhsIdx j k 0).val = (j 0).val := by
  unfold DotDims.lhsIdx
  rw [dif_neg (by rw [lb]; exact List.not_mem_nil), dif_pos (by rw [ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [lb, ln])

/-- A kept axis of the second operand reads the result index: axis 1 is result axis 1. -/
theorem rhs_col (rb : d.rhsBatch = []) (lb : d.lhsBatch = []) (ln : d.lhsNonContracting = [0]) (rn : d.rhsNonContracting = [1])
    (j : (⟨2, ![M, N]⟩ : Shape).Idx) (k : d.contr.Idx) :
    (d.rhsIdx j k 1).val = (j 1).val := by
  unfold DotDims.rhsIdx
  rw [dif_neg (by rw [rb]; exact List.not_mem_nil), dif_pos (by rw [rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [lb, ln, rn])

/-- The product into a zero accumulator at entry (p, q): the sum over the contracted coordinate. -/
theorem matmul_zero_apply (hr : d.contr.rank = 1) (hs : d.contr.size ⟨0, by omega⟩ = K)
    (lb : d.lhsBatch = []) (rb : d.rhsBatch = []) (ln : d.lhsNonContracting = [0]) (rn : d.rhsNonContracting = [1])
    (lc : d.lhsContracting = [1]) (rc : d.rhsContracting = [0]) {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  have e1 : d.lhsIdx (ix2 p q) ((contrEquiv1 d K hr hs).symm k) = ix2 p k := by
    funext a; apply Fin.ext
    match a with
    | ⟨0, _⟩ => exact lhs_row d lb ln _ _
    | ⟨1, _⟩ => exact (d.lhsIdx_val_of_single lc _ _).trans hk
  have e2 : d.rhsIdx (ix2 p q) ((contrEquiv1 d K hr hs).symm k) = ix2 k q := by
    funext a; apply Fin.ext
    match a with
    | ⟨0, _⟩ => exact (d.rhsIdx_val_of_single rc _ _).trans hk
    | ⟨1, _⟩ => exact rhs_col d rb lb ln rn _ _
  rw [e1, e2]

end Cert.PlainDot

end
-- ==== Proof.KPayload.lean ====
/-
  The body's one stored value, read at a row and a column.

  The body loads a block of 256 token rows and the two weight matrices and bias rows whole, and stores
      (act ((rows · W1) + b1) · W2) + b2,
  each product accumulated into zero and `act` the tanh form of GELU followed by a change of float format. On the
  extended reals the format change is the identity, each product at an entry is the sum over its contracted coordinate,
  and a one-row bias broadcast over the rows reads that row: so entry (y, o) of the stored block is output `o` of the
  perceptron at the token whose row is row `y` of the loaded block.
-/
import proofs.«430718_j51926154608671_3_alg».proof.Proof.Gen.KernelIdeal.Skeleton
import proofs.«430718_j51926154608671_3_alg».proof.Proof.Spec
import proofs.«430718_j51926154608671_3_alg».proof.Proof.LibPlainDot
import Idealize.ShloMosaic.Lib.Pipeline.Value
import Idealize.ShloMosaic.Lib.ValueLayout

noncomputable section

open scoped BigOperators

namespace Cert.KernelIdeal.KPayload

open Cert.KernelIdeal Cert.KernelIdeal.Gen Idealize.ShloMosaic Idealize.ShloMosaic.ValueIdx

/-- The hidden layer before the activation: the rows times W1, plus the bias row broadcast over the rows. -/
def pre (x0 : FVec Ideal S256x1024 .bf16) (x1 : FVec Ideal S1024x4096 .bf16) (x2 : FVec Ideal S1x4096 .f32) : FVec Ideal S256x4096 .f32 :=
  addf (matmul dot_S256x1024_S1024x4096_S256x4096_1_0_0_1_n_n none (shapeCast S256x1024 x0 shapeCasts_S256x1024_S256x1024)
      (shapeCast S1024x4096 x1 shapeCasts_S1024x4096_S1024x4096) (constant S256x4096 .f32 0x00000000#32))
    (broadcastTo S256x4096 (shapeCast S1x4096 x2 shapeCasts_S1x4096_S1x4096) broadcasts_S1x4096_S256x4096)

/-- The activation, entry by entry, then the change of format. -/
def act (v : FVec Ideal S256x4096 .f32) : FVec Ideal S256x4096 .bf16 :=
  truncf .bf16 (mulf v (mulf (broadcast S256x4096 (Scalar.ofBits .f32 0x3F000000#32))
    (addf (broadcast S256x4096 (Scalar.ofBits .f32 0x3F800000#32))
      (tanh (mulf (broadcast S256x4096 (Scalar.ofBits .f32 0x3F4C422A#32))
        (addf v (mulf (broadcast S256x4096 (Scalar.ofBits .f32 0x3D372713#32)) (mulf v (mulf v v))))))))) bitsLt_bf16_f32

/-- The stored value is the second product of the activated hidden layer, plus the second bias row. -/
theorem pay_eq (x0 : FVec Ideal S256x1024 .bf16) (x1 : FVec Ideal S1024x4096 .bf16) (x2 : FVec Ideal S1x4096 .f32)
    (x3 : FVec Ideal S4096x1024 .bf16) (x4 : FVec Ideal S1x1024 .f32) :
    k0_pay1 (F := Ideal) x0 x1 x2 x3 x4
      = addf (matmul dot_S256x4096_S4096x1024_S256x1024_1_0_0_1_n_n none (act (pre x0 x1 x2))
            (shapeCast S4096x1024 x3 shapeCasts_S4096x1024_S4096x1024) (constant S256x1024 .f32 0x00000000#32))
          (broadcastTo S256x1024 (shapeCast S1x1024 x4 shapeCasts_S1x1024_S1x1024) broadcasts_S1x1024_S256x1024) := rfl

/-- The hidden layer before the activation, at row y and unit h. -/
theorem pre_apply (x0 : FVec Ideal S256x1024 .bf16) (x1 : FVec Ideal S1024x4096 .bf16) (x2 : FVec Ideal S1x4096 .f32)
    (y : Fin 256) (h : Fin 4096) :
    pre x0 x1 x2 (ix2 y h) = (∑ d : Fin 1024, x0 (ix2 y d) * x1 (ix2 d h)) + x2 (ix2 (0 : Fin 1) h) := by
  unfold pre
  rw [addf_apply, shapeCast_self, shapeCast_self, shapeCast_self]
  refine congrArg₂ (· + ·) ?_ ?_
  · exact Cert.PlainDot.matmul_zero_apply dot_S256x1024_S1024x4096_S256x4096_1_0_0_1_n_n rfl rfl rfl rfl rfl rfl rfl rfl none x0 x1 y h
  · exact broadcastTo_1b_ab_apply x2 _ y h

/-- The activation at an entry is the scalar activation of that entry. -/
theorem act_apply (v : FVec Ideal S256x4096 .f32) (j : S256x4096.Idx) : act v j = Cert.Mlp.gelu (v j) := rfl

/-- Entry (y, o) of the stored block: output o of the perceptron at the token whose row is row y of the loaded block. -/
theorem pay_apply (x0 : FVec Ideal S256x1024 .bf16) (x1 : FVec Ideal S1024x4096 .bf16) (x2 : FVec Ideal S1x4096 .f32)
    (x3 : FVec Ideal S4096x1024 .bf16) (x4 : FVec Ideal S1x1024 .f32) (y : Fin 256) (o : Fin 1024) :
    k0_pay1 (F := Ideal) x0 x1 x2 x3 x4 (ix2 y o)
      = Cert.Mlp.outAt (fun d => x0 (ix2 y d)) x1 (fun j => x2 (ix2 (0 : Fin 1) (j 0))) x3 (fun j => x4 (ix2 (0 : Fin 1) (j 0))) o := by
  rw [pay_eq, addf_apply, shapeCast_self, shapeCast_self]
  unfold Cert.Mlp.outAt
  refine congrArg₂ (· + ·) ?_ ?_
  · refine (Cert.PlainDot.matmul_zero_apply dot_S256x4096_S4096x1024_S256x1024_1_0_0_1_n_n rfl rfl rfl rfl rfl rfl rfl rfl none
      (act (pre x0 x1 x2)) x3 y o).trans ?_
    refine Finset.sum_congr rfl fun h _ => ?_
    rw [act_apply, pre_apply]
    rfl
  · exact broadcastTo_1b_ab_apply x4 _ y o

end Cert.KernelIdeal.KPayload

end
-- ==== Proof.KHost.lean ====
/-
  What the region finds in the arrays its windows stage.

  Before the region the program clamps the index, looks the rows up, lays the 32 × 576 tokens out as 18432 rows,
  changes the float format of the rows and of the two weight matrices, and gives each bias a leading axis of one.
  Read stretch by stretch over any contents of the buffers: after the clamp's stretch its result holds `clip` of the
  index; after the lookup's stretch its result holds `lookup` of the codebook and of whatever index it was given; the
  last stretch is a reshape or a format change of one buffer each. No stretch writes an argument.
-/
import proofs.«430718_j51926154608671_3_alg».proof.Proof.Gen.KernelIdeal.Frame
import proofs.«430718_j51926154608671_3_alg».proof.Proof.Spec
import proofs.«430718_j51926154608671_3_alg».proof.Proof.LibTypedRead
import proofs.«430718_j51926154608671_3_alg».proof.Proof.LibTypedReadSelect

noncomputable section

namespace Cert.KernelIdeal.KHost

open Cert.KernelIdeal Cert.KernelIdeal.Gen Idealize.ShloMosaic Idealize.ShloMosaic.TcCoe Idealize.SL.Sem Idealize.ShloMosaic.StableHlo
open Cert.TypedRead

variable (X : Valuation τ sig (Elt Ideal))

/-! ## The clamp -/

/-- The two constants the clamp uses, and the index, after the stretch that writes the constants. -/
theorem const_lo : after (hostOps0 (F := Ideal)) X (Proc.devRef .tc main_c : DevRef τ sig) = (constantI S_ 32 0#32 : IVec S_ 32) := by
  after_results_simp
theorem const_hi : after (hostOps0 (F := Ideal)) X (Proc.devRef .tc main_c_0 : DevRef τ sig) = (constantI S_ 32 8191#32 : IVec S_ 32) := by
  after_results_simp
theorem const_keeps_arg0 :
    after (hostOps0 (F := Ideal)) X (Proc.devRef .tc main_arg0 : DevRef τ sig) = X (Proc.devRef .tc main_arg0 : DevRef τ sig) := by
  after_results_simp

theorem const_keeps_arg1 :
    after (hostOps0 (F := Ideal)) X (Proc.devRef .tc main_arg1 : DevRef τ sig) = X (Proc.devRef .tc main_arg1 : DevRef τ sig) := by
  after_results_simp

theorem const_keeps_arg2 :
    after (hostOps0 (F := Ideal)) X (Proc.devRef .tc main_arg2 : DevRef τ sig) = X (Proc.devRef .tc main_arg2 : DevRef τ sig) := by
  after_results_simp

theorem const_keeps_arg3 :
    after (hostOps0 (F := Ideal)) X (Proc.devRef .tc main_arg3 : DevRef τ sig) = X (Proc.devRef .tc main_arg3 : DevRef τ sig) := by
  after_results_simp

theorem const_keeps_arg4 :
    after (hostOps0 (F := Ideal)) X (Proc.devRef .tc main_arg4 : DevRef τ sig) = X (Proc.devRef .tc main_arg4 : DevRef τ sig) := by
  after_results_simp

theorem const_keeps_arg5 :
    after (hostOps0 (F := Ideal)) X (Proc.devRef .tc main_arg5 : DevRef τ sig) = X (Proc.devRef .tc main_arg5 : DevRef τ sig) := by
  after_results_simp

/-- After the clamp's stretch its result holds the smaller of the upper constant and the larger of the lower constant
    and the index, whatever the three buffers held. -/
theorem clamp_v0 :
    after (hostOps0_1 (F := Ideal)) X (Proc.devRef .tc main_v0 : DevRef τ sig)
      = (minsi (broadcastInDim S32x576 ![] bcast_S_S32x576 (X (Proc.devRef .tc main_c_0 : DevRef τ sig) : IVec S_ 32))
          (maxsi (broadcastInDim S32x576 ![] bcast_S_S32x576 (X (Proc.devRef .tc main_c : DevRef τ sig) : IVec S_ 32)) (X (Proc.devRef .tc main_arg0 : DevRef τ sig))) : IVec S32x576 32) := by
  show read (.of main_v0 : TRef sig ⟨S32x576, .i32⟩) (after (hostOps0_1 (F := Ideal)) X) = _
  simp (disch := decide) only [after_cons, after_nil, read_nullary, read_unary, read_binary, read_ternary,
    read_nullary_ne, read_unary_ne, read_binary_ne, read_ternary_ne]
  rfl

theorem clamp_keeps_arg1 :
    after (hostOps0_1 (F := Ideal)) X (Proc.devRef .tc main_arg1 : DevRef τ sig) = X (Proc.devRef .tc main_arg1 : DevRef τ sig) := by
  after_results_simp

theorem clamp_keeps_arg2 :
    after (hostOps0_1 (F := Ideal)) X (Proc.devRef .tc main_arg2 : DevRef τ sig) = X (Proc.devRef .tc main_arg2 : DevRef τ sig) := by
  after_results_simp

theorem clamp_keeps_arg3 :
    after (hostOps0_1 (F := Ideal)) X (Proc.devRef .tc main_arg3 : DevRef τ sig) = X (Proc.devRef .tc main_arg3 : DevRef τ sig) := by
  after_results_simp

theorem clamp_keeps_arg4 :
    after (hostOps0_1 (F := Ideal)) X (Proc.devRef .tc main_arg4 : DevRef τ sig) = X (Proc.devRef .tc main_arg4 : DevRef τ sig) := by
  after_results_simp

theorem clamp_keeps_arg5 :
    after (hostOps0_1 (F := Ideal)) X (Proc.devRef .tc main_arg5 : DevRef τ sig) = X (Proc.devRef .tc main_arg5 : DevRef τ sig) := by
  after_results_simp

/-! ## The lookup -/

/-- After the lookup's stretch its result holds the rows of the index the stretch was given. -/
theorem lookup_v1 :
    after (hostOps0_2 (F := Ideal)) X (Proc.devRef .tc main_v1 : DevRef τ sig)
      = (Cert.Mlp.lookup (F := Ideal) (X (Proc.devRef .tc main_arg1 : DevRef τ sig)) (X (Proc.devRef .tc main_v0 : DevRef τ sig)) : FVec Ideal Cert.Mlp.SRows .f32) := by
  show read (.of main_v1 : TRef sig ⟨S32x576x1024, .f32⟩) (after (hostOps0_2 (F := Ideal)) X) = _
  simp (disch := decide) only [after_cons, after_nil, read_nullary, read_unary, read_binary, read_ternary,
    read_nullary_ne, read_unary_ne, read_binary_ne, read_ternary_ne]
  rfl

theorem lookup_keeps_arg2 :
    after (hostOps0_2 (F := Ideal)) X (Proc.devRef .tc main_arg2 : DevRef τ sig) = X (Proc.devRef .tc main_arg2 : DevRef τ sig) := by
  after_results_simp

theorem lookup_keeps_arg3 :
    after (hostOps0_2 (F := Ideal)) X (Proc.devRef .tc main_arg3 : DevRef τ sig) = X (Proc.devRef .tc main_arg3 : DevRef τ sig) := by
  after_results_simp

theorem lookup_keeps_arg4 :
    after (hostOps0_2 (F := Ideal)) X (Proc.devRef .tc main_arg4 : DevRef τ sig) = X (Proc.devRef .tc main_arg4 : DevRef τ sig) := by
  after_results_simp

theorem lookup_keeps_arg5 :
    after (hostOps0_2 (F := Ideal)) X (Proc.devRef .tc main_arg5 : DevRef τ sig) = X (Proc.devRef .tc main_arg5 : DevRef τ sig) := by
  after_results_simp

/-! ## The layout and the formats -/

theorem rows_v3 :
    after (hostOps0_3 (F := Ideal)) X (Proc.devRef .tc main_v3 : DevRef τ sig)
      = (truncf .bf16 (shapeCast S18432x1024 (X (Proc.devRef .tc main_v1 : DevRef τ sig)) shapeCasts_S32x576x1024_S18432x1024) bitsLt_bf16_f32 : FVec Ideal S18432x1024 .bf16) := by
  after_results_simp
  rfl

theorem w1_v4 :
    after (hostOps0_3 (F := Ideal)) X (Proc.devRef .tc main_v4 : DevRef τ sig) = (truncf .bf16 (X (Proc.devRef .tc main_arg2 : DevRef τ sig)) bitsLt_bf16_f32 : FVec Ideal S1024x4096 .bf16) := by
  after_results_simp

theorem w2_v5 :
    after (hostOps0_3 (F := Ideal)) X (Proc.devRef .tc main_v5 : DevRef τ sig) = (truncf .bf16 (X (Proc.devRef .tc main_arg4 : DevRef τ sig)) bitsLt_bf16_f32 : FVec Ideal S4096x1024 .bf16) := by
  after_results_simp

theorem b1_v6 :
    after (hostOps0_3 (F := Ideal)) X (Proc.devRef .tc main_v6 : DevRef τ sig) = (shapeCast S1x4096 (X (Proc.devRef .tc main_arg3 : DevRef τ sig)) shapeCasts_S4096_S1x4096 : FVec Ideal S1x4096 .f32) := by
  after_results_simp
  rfl

theorem b2_v7 :
    after (hostOps0_3 (F := Ideal)) X (Proc.devRef .tc main_v7 : DevRef τ sig) = (shapeCast S1x1024 (X (Proc.devRef .tc main_arg5 : DevRef τ sig)) shapeCasts_S1024_S1x1024 : FVec Ideal S1x1024 .f32) := by
  after_results_simp
  rfl

end Cert.KernelIdeal.KHost

end
-- ==== Proof.KValue.lean ====
/-
  The kernel program's run, read back: its result array is the perceptron applied to the rows looked up at the clamped index.

  The region's grid has 72 points; point t stages rows 256·t … 256·t + 255 of the 18432 token rows, the two weight
  matrices and the two bias rows whole, and writes back rows 256·t … 256·t + 255 of the result. What it writes is the
  stored block of the body, whose entry (y, o) is output o of the perceptron at the token of row y of the staged block,
  that is of row 256·t + y of the array: so every point writes its block of ONE function of the arrays the region finds,
  `outRows`, and the 72 blocks tile the result array. After the region the result is laid out again as 32 × 576 tokens.
  The arrays the region finds are the looked-up rows of the clamped index laid out as 18432 rows, and the weights and
  biases, each after a format change or a reshape that does not change a value on the extended reals.
-/
import proofs.«430718_j51926154608671_3_alg».proof.Proof.Gen.KernelIdeal.Frame
import proofs.«430718_j51926154608671_3_alg».proof.Proof.Spec
import proofs.«430718_j51926154608671_3_alg».proof.Proof.KPayload
import proofs.«430718_j51926154608671_3_alg».proof.Proof.KHost
import Idealize.ShloMosaic.Lib.Pipeline.Value
import Idealize.ShloMosaic.Lib.ValueLayout

noncomputable section

open scoped BigOperators

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds and the blocks a point stages, at their literal types -/

abbrev rowsA (c : Dev nD) : FVec Ideal S18432x1024 .bf16 := V m c main_v3
abbrev w1A (c : Dev nD) : FVec Ideal S1024x4096 .bf16 := V m c main_v4
abbrev b1A (c : Dev nD) : FVec Ideal S1x4096 .f32 := V m c main_v6
abbrev w2A (c : Dev nD) : FVec Ideal S4096x1024 .bf16 := V m c main_v5
abbrev b2A (c : Dev nD) : FVec Ideal S1x1024 .f32 := V m c main_v7

abbrev rowsB (c : Dev nD) (t : Fin cfg0.N) : FVec Ideal S256x1024 .bf16 := iblk m c 0 t
abbrev w1B (c : Dev nD) (t : Fin cfg0.N) : FVec Ideal S1024x4096 .bf16 := iblk m c 1 t
abbrev b1B (c : Dev nD) (t : Fin cfg0.N) : FVec Ideal S1x4096 .f32 := iblk m c 2 t
abbrev w2B (c : Dev nD) (t : Fin cfg0.N) : FVec Ideal S4096x1024 .bf16 := iblk m c 3 t
abbrev b2B (c : Dev nD) (t : Fin cfg0.N) : FVec Ideal S1x1024 .f32 := iblk m c 4 t

/-- The block indices over the grid: the rows' and the result's block is the point's number, the others' is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 72 := lt_of_lt_of_eq t.isLt N_0

/-- Row y of the block of rows staged at point t is row 256·t + y of the array. -/
theorem rowsB_apply (c : Dev nD) (t : Fin cfg0.N) (y : Fin 256) (d : Fin 1024) :
    rowsB m c t (ix2 y d)
      = rowsA m c (ix2 (⟨t.val * 256 + y.val, by have := point_lt t; have := y.isLt; omega⟩ : Fin 18432) d) := by
  show V m c main_v3 (((cfg0.win 0).blk t).view.emb (ix2 y d)) = V m c main_v3 _
  refine congrArg (V m c main_v3) (funext fun a => Fin.ext ?_)
  obtain ⟨e0, e1, -⟩ := idx_facts t
  match a with
  | ⟨0, _⟩ => show win0_0.index t (0 : Fin 2) * 256 + 1 * y.val = t.val * 256 + y.val; rw [e0]; omega
  | ⟨1, _⟩ => show win0_0.index t (1 : Fin 2) * 1024 + 1 * d.val = d.val; rw [e1]; omega

/-- The other four windows stage their whole arrays at every point. -/
theorem w1B_eq (c : Dev nD) (t : Fin cfg0.N) : w1B m c t = w1A m c := by
  funext j
  show V m c main_v4 (((cfg0.win 1).blk t).view.emb j) = V m c main_v4 j
  refine congrArg (V m c main_v4) (funext fun a => Fin.ext ?_)
  obtain ⟨-, -, e0, e1, -⟩ := idx_facts t
  match a with
  | ⟨0, _⟩ => show win0_1.index t (0 : Fin 2) * 1024 + 1 * (j 0).val = (j 0).val; rw [e0]; omega
  | ⟨1, _⟩ => show win0_1.index t (1 : Fin 2) * 4096 + 1 * (j 1).val = (j 1).val; rw [e1]; omega
theorem b1B_eq (c : Dev nD) (t : Fin cfg0.N) : b1B m c t = b1A m c := by
  funext j
  show V m c main_v6 (((cfg0.win 2).blk t).view.emb j) = V m c main_v6 j
  refine congrArg (V m c main_v6) (funext fun a => Fin.ext ?_)
  obtain ⟨-, -, -, -, e0, e1, -⟩ := idx_facts t
  match a with
  | ⟨0, _⟩ => show win0_2.index t (0 : Fin 2) * 1 + 1 * (j 0).val = (j 0).val; rw [e0]; omega
  | ⟨1, _⟩ => show win0_2.index t (1 : Fin 2) * 4096 + 1 * (j 1).val = (j 1).val; rw [e1]; omega
theorem w2B_eq (c : Dev nD) (t : Fin cfg0.N) : w2B m c t = w2A m c := by
  funext j
  show V m c main_v5 (((cfg0.win 3).blk t).view.emb j) = V m c main_v5 j
  refine congrArg (V m c main_v5) (funext fun a => Fin.ext ?_)
  obtain ⟨-, -, -, -, -, -, e0, e1, -⟩ := idx_facts t
  match a with
  | ⟨0, _⟩ => show win0_3.index t (0 : Fin 2) * 4096 + 1 * (j 0).val = (j 0).val; rw [e0]; omega
  | ⟨1, _⟩ => show win0_3.index t (1 : Fin 2) * 1024 + 1 * (j 1).val = (j 1).val; rw [e1]; omega
theorem b2B_eq (c : Dev nD) (t : Fin cfg0.N) : b2B m c t = b2A m c := by
  funext j
  show V m c main_v7 (((cfg0.win 4).blk t).view.emb j) = V m c main_v7 j
  refine congrArg (V m c main_v7) (funext fun a => Fin.ext ?_)
  obtain ⟨-, -, -, -, -, -, -, -, e0, e1, -⟩ := idx_facts t
  match a with
  | ⟨0, _⟩ => show win0_4.index t (0 : Fin 2) * 1 + 1 * (j 0).val = (j 0).val; rw [e0]; omega
  | ⟨1, _⟩ => show win0_4.index t (1 : Fin 2) * 1024 + 1 * (j 1).val = (j 1).val; rw [e1]; omega

/-! ## The result rows as one function of the arrays the region finds -/

/-- Entry (r, o): output o of the perceptron at the token of row r. -/
def outRows (c : Dev nD) : FVec Ideal S18432x1024 .f32 := fun i =>
  Cert.Mlp.outAt (fun d => rowsA m c (ix2 (i 0 : Fin 18432) d)) (w1A m c) (fun j => b1A m c (ix2 (0 : Fin 1) (j 0 : Fin 4096)))
    (w2A m c) (fun j => b2A m c (ix2 (0 : Fin 1) (j 0 : Fin 1024))) (i 1 : Fin 1024)

theorem hz : (![0, 0] : Fin 2 → Nat) = fun _ => 0 := funext fun a => by fin_cases a <;> rfl

/-- What point t writes back is block t of `outRows`. -/
theorem flushed5_eq (c : Dev nD) (t : Fin cfg0.N) :
    (dats m 0 c).flushed 5 t = ((cfg0.win 5).blk t).view.read (Elt Ideal) (outRows m c) := by
  show (cfg0.win 5).cut (grid0.coords t) ((dats m 0 c).after 5 t) = _
  rw [after0_5]
  unfold out0_5
  rw [View.canon_unit_zero hz]
  simp only [View.ld_unit_zero (S := S256x1024) hz, View.ld_unit_zero (S := S1024x4096) hz, View.ld_unit_zero (S := S1x4096) hz,
    View.ld_unit_zero (S := S4096x1024) hz, View.ld_unit_zero (S := S1x1024) hz]
  refine funext fun (j : S256x1024.Idx) => ?_
  rw [eq_ix2 j]
  show k0_pay1 (F := Ideal) (rowsB m c t) (w1B m c t) (b1B m c t) (w2B m c t) (b2B m c t) (ix2 (j 0) (j 1))
    = outRows m c (((cfg0.win 5).blk t).view.emb (ix2 (j 0) (j 1)))
  refine (KPayload.pay_apply (rowsB m c t) (w1B m c t) (b1B m c t) (w2B m c t) (b2B m c t) (j 0) (j 1)).trans ?_
  rw [w1B_eq, b1B_eq, w2B_eq, b2B_eq]
  have hemb : ((cfg0.win 5).blk t).view.emb (ix2 (j 0 : Fin 256) (j 1 : Fin 1024))
      = ix2 (⟨t.val * 256 + (j 0).val, by have := point_lt t; have : (j 0).val < 256 := (j 0).isLt; omega⟩ : Fin 18432) (j 1 : Fin 1024) := by
    funext a; apply Fin.ext
    obtain ⟨-, -, -, -, -, -, -, -, -, -, e0, e1⟩ := idx_facts t
    match a with
    | ⟨0, _⟩ => show win0_5.index t (0 : Fin 2) * 256 + 1 * (j 0).val = t.val * 256 + (j 0).val; rw [e0]; omega
    | ⟨1, _⟩ => show win0_5.index t (1 : Fin 2) * 1024 + 1 * (j 1).val = (j 1).val; rw [e1]; omega
  rw [hemb]
  unfold outRows
  exact congrArg (fun q => Cert.Mlp.outAt q (w1A m c) (fun j => b1A m c (ix2 (0 : Fin 1) (j 0 : Fin 4096))) (w2A m c)
    (fun j => b2A m c (ix2 (0 : Fin 1) (j 0 : Fin 1024))) (j 1 : Fin 1024)) (funext fun d => rowsB_apply m c t (j 0) d)

/-- An index of the result array is in point t's block iff each coordinate is in the block's range on its axis. -/
theorem mem_blk5 (t : Fin cfg0.N) (i : S18432x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v8).slice (win0_5.rect t)).set ↔ _
  rw [View.set_slice_whole, Rect.mem_set_unit]
  exact Iff.rfl

/-- The 72 blocks tile the result array: row r is in the block of point r / 256. -/
theorem cover5 (i : S18432x1024.Idx) : ∃ t : Fin cfg0.N, (cfg0.win 5).flush t = true ∧ i ∈ ((cfg0.win 5).blk t).view.set := by
  have hi0 : (i 0).val < 18432 := (i 0).isLt
  have hi1 : (i 1).val < 1024 := (i 1).isLt
  obtain ⟨t, ht⟩ : ∃ t : Fin cfg0.N, t.val = (i 0).val / 256 :=
    ⟨⟨(i 0).val / 256, by show (i 0).val / 256 < grid0.N; rw [N_0]; omega⟩, rfl⟩
  refine ⟨t, flush0_5 t, ?_⟩
  rw [mem_blk5]
  obtain ⟨-, -, -, -, -, -, -, -, -, -, e0, e1⟩ := idx_facts t
  intro a
  match a with
  | ⟨0, _⟩ => show win0_5.index t (0 : Fin 2) * 256 ≤ (i 0).val ∧ (i 0).val < win0_5.index t (0 : Fin 2) * 256 + 256; rw [e0]; omega
  | ⟨1, _⟩ => show win0_5.index t (1 : Fin 2) * 1024 ≤ (i 1).val ∧ (i 1).val < win0_5.index t (1 : Fin 2) * 1024 + 1024; rw [e1]; omega

/-- The result array after the region. -/
theorem final5 (c : Dev nD) : (dats m 0 c).arrAt 5 cfg0.N = outRows m c :=
  (dats m 0 c).arrAt_eq_of_cover 5 (outRows m c) (fun t _ => flushed5_eq m c t) cover5

/-! ## The arrays the region finds, from the arguments -/

/-- The contents at the region's entry, stretch after stretch. -/
theorem V0_split (c : Dev nD) :
    V0 m c = StableHlo.after hostOps0_3 (StableHlo.after hostOps0_2 (StableHlo.after hostOps0_1 (StableHlo.after hostOps0 (fun b => m (c, b))))) := by
  show StableHlo.after (List.flatten [hostOps0, hostOps0_1, hostOps0_2, hostOps0_3]) (fun b => m (c, b)) = _
  rw [List.flatten_cons, List.flatten_cons, List.flatten_cons, List.flatten_cons, List.flatten_nil, List.append_nil,
    StableHlo.after_append, StableHlo.after_append, StableHlo.after_append]

/-- The rows: looked up at the clamped index, laid out as 18432 rows, their format changed. -/
theorem rowsA_eq (c : Dev nD) :
    rowsA m c = (truncf .bf16 (shapeCast S18432x1024 (Cert.Mlp.lookup (F := Ideal) (m ((c.tc : Thread nD τ).loc main_arg1)) (Cert.Mlp.clip (m ((c.tc : Thread nD τ).loc main_arg0))))
      shapeCasts_S32x576x1024_S18432x1024) bitsLt_bf16_f32 : FVec Ideal S18432x1024 .bf16) := by
  show V0 m c (Proc.devRef .tc main_v3) = _
  rw [V0_split, KHost.rows_v3, KHost.lookup_v1, KHost.clamp_keeps_arg1, KHost.const_keeps_arg1, KHost.clamp_v0, KHost.const_hi,
    KHost.const_lo, KHost.const_keeps_arg0]
  rfl

theorem w1A_eq (c : Dev nD) : w1A m c = (truncf .bf16 (m ((c.tc : Thread nD τ).loc main_arg2)) bitsLt_bf16_f32 : FVec Ideal S1024x4096 .bf16) := by
  show V0 m c (Proc.devRef .tc main_v4) = _
  rw [V0_split, KHost.w1_v4, KHost.lookup_keeps_arg2, KHost.clamp_keeps_arg2, KHost.const_keeps_arg2]

theorem w2A_eq (c : Dev nD) : w2A m c = (truncf .bf16 (m ((c.tc : Thread nD τ).loc main_arg4)) bitsLt_bf16_f32 : FVec Ideal S4096x1024 .bf16) := by
  show V0 m c (Proc.devRef .tc main_v5) = _
  rw [V0_split, KHost.w2_v5, KHost.lookup_keeps_arg4, KHost.clamp_keeps_arg4, KHost.const_keeps_arg4]

theorem b1A_eq (c : Dev nD) : b1A m c = (shapeCast S1x4096 (m ((c.tc : Thread nD τ).loc main_arg3)) shapeCasts_S4096_S1x4096 : FVec Ideal S1x4096 .f32) := by
  show V0 m c (Proc.devRef .tc main_v6) = _
  rw [V0_split, KHost.b1_v6, KHost.lookup_keeps_arg3, KHost.clamp_keeps_arg3, KHost.const_keeps_arg3]

theorem b2A_eq (c : Dev nD) : b2A m c = (shapeCast S1x1024 (m ((c.tc : Thread nD τ).loc main_arg5)) shapeCasts_S1024_S1x1024 : FVec Ideal S1x1024 .f32) := by
  show V0 m c (Proc.devRef .tc main_v7) = _
  rw [V0_split, KHost.b2_v7, KHost.lookup_keeps_arg5, KHost.clamp_keeps_arg5, KHost.const_keeps_arg5]

/-! ## The result, laid out as 32 × 576 tokens -/

/-- After the region the result buffer holds the result rows laid out again as 32 × 576 tokens. -/
theorem result_tail (c : Dev nD) :
    Pipeline.afterTail₀ cfgs (dats m) 0 (V0 m) [hostOps1] c main_v9
      = (shapeCast S32x576x1024 (outRows m c) shapeCasts_S18432x1024_S32x576x1024 : FVec Ideal S32x576x1024 .f32) := by
  unfold Pipeline.afterTail₀
  show StableHlo.after hostOps1 _ (Proc.devRef .tc main_v9) = _
  after_results
  have e := (Pipeline.withArrays_arr spec0 launch0.win.arr_inj c (V0 m c) (fun w => (dats m 0 c).arrAt w cfg0.N) 5).trans (final5 m c)
  exact congrArg (fun x : FVec Ideal S18432x1024 .f32 =>
    (shapeCast S32x576x1024 x shapeCasts_S18432x1024_S32x576x1024 : FVec Ideal S32x576x1024 .f32)) e

/-- The perceptron at a token does not see the layout: at row 576·b + t of the rows laid out as 18432, with each weight
    matrix after a format change and each bias read through a leading axis of one, it is the perceptron at token (b, t). -/
theorem relaid (Q : FVec Ideal S32x576x1024 .f32) (W1 : FVec Ideal S1024x4096 .f32) (B1 : FVec Ideal S4096 .f32)
    (W2 : FVec Ideal S4096x1024 .f32) (B2 : FVec Ideal S1024 .f32) (b : Fin 32) (t : Fin 576) (o : Fin 1024)
    (hr : b.val * 576 + t.val < 18432) :
    Cert.Mlp.outAt
        (fun d => (truncf .bf16 (shapeCast S18432x1024 Q shapeCasts_S32x576x1024_S18432x1024) bitsLt_bf16_f32 : FVec Ideal S18432x1024 .bf16)
          (ix2 (⟨b.val * 576 + t.val, hr⟩ : Fin 18432) d))
        (truncf .bf16 W1 bitsLt_bf16_f32 : FVec Ideal S1024x4096 .bf16)
        (fun j => (shapeCast S1x4096 B1 shapeCasts_S4096_S1x4096 : FVec Ideal S1x4096 .f32) (ix2 (0 : Fin 1) (j 0 : Fin 4096)))
        (truncf .bf16 W2 bitsLt_bf16_f32 : FVec Ideal S4096x1024 .bf16)
        (fun j => (shapeCast S1x1024 B2 shapeCasts_S1024_S1x1024 : FVec Ideal S1x1024 .f32) (ix2 (0 : Fin 1) (j 0 : Fin 1024))) o
      = Cert.Mlp.outAt (fun d => Q (ix3 b t d)) W1 B1 W2 B2 o := by
  have h1 : (fun d : Fin 1024 => (truncf .bf16 (shapeCast S18432x1024 Q shapeCasts_S32x576x1024_S18432x1024) bitsLt_bf16_f32 : FVec Ideal S18432x1024 .bf16)
      (ix2 (⟨b.val * 576 + t.val, hr⟩ : Fin 18432) d)) = fun d => Q (ix3 b t d) :=
    funext fun d => shapeCast_apply Q shapeCasts_S32x576x1024_S18432x1024 (ix2 (⟨b.val * 576 + t.val, hr⟩ : Fin 18432) d) (ix3 b t d)
      (by rw [Shape.rowMajor_val_two, Shape.rowMajor_val_three]; rfl)
  have h2 : (fun j : Cert.Mlp.SB1.Idx => (shapeCast S1x4096 B1 shapeCasts_S4096_S1x4096 : FVec Ideal S1x4096 .f32) (ix2 (0 : Fin 1) (j 0 : Fin 4096))) = B1 :=
    funext fun j => (shapeCast_a_1a_apply B1 shapeCasts_S4096_S1x4096 (0 : Fin 1) (j 0)).trans (congrArg B1 (eq_ix1 j).symm)
  have h3 : (fun j : Cert.Mlp.SB2.Idx => (shapeCast S1x1024 B2 shapeCasts_S1024_S1x1024 : FVec Ideal S1x1024 .f32) (ix2 (0 : Fin 1) (j 0 : Fin 1024))) = B2 :=
    funext fun j => (shapeCast_a_1a_apply B2 shapeCasts_S1024_S1x1024 (0 : Fin 1) (j 0)).trans (congrArg B2 (eq_ix1 j).symm)
  rw [h1, h2, h3]
  rfl

/-- Token (b, t) is row 576·b + t: the laid-out result rows are the perceptron of the looked-up rows. -/
theorem result_eq (c : Dev nD) :
    (shapeCast S32x576x1024 (outRows m c) shapeCasts_S18432x1024_S32x576x1024 : FVec Ideal S32x576x1024 .f32)
      = Cert.Mlp.result (Cert.Mlp.lookup (F := Ideal) (m ((c.tc : Thread nD τ).loc main_arg1)) (Cert.Mlp.clip (m ((c.tc : Thread nD τ).loc main_arg0))))
          (m ((c.tc : Thread nD τ).loc main_arg2)) (m ((c.tc : Thread nD τ).loc main_arg3)) (m ((c.tc : Thread nD τ).loc main_arg4)) (m ((c.tc : Thread nD τ).loc main_arg5)) := by
  funext i
  obtain ⟨b, t, o, rfl⟩ : ∃ (b : Fin 32) (t : Fin 576) (o : Fin 1024), i = ix3 b t o := ⟨i 0, i 1, i 2, eq_ix3 i⟩
  have hr : b.val * 576 + t.val < 18432 := by have := b.isLt; have := t.isLt; omega
  rw [Cert.Mlp.result_apply,
    shapeCast_apply (outRows m c) shapeCasts_S18432x1024_S32x576x1024 (ix3 b t o) (ix2 (⟨b.val * 576 + t.val, hr⟩ : Fin 18432) o)
      (by rw [Shape.rowMajor_val_two, Shape.rowMajor_val_three]; rfl)]
  unfold outRows
  rw [rowsA_eq, w1A_eq, w2A_eq, b1A_eq, b2A_eq]
  exact relaid _ _ _ _ _ b t o hr

/-! ## The run -/

/-- Every weakly fair execution of the kernel program terminates with its result at the perceptron of the rows looked
    up at the clamped index, and its arguments unchanged. -/
theorem run :
    θ_run (defs (F := Ideal)) (onTc (τ := τ) (main (F := Ideal))) ⟨m, fun _ => 0, ρ⟩ fun r => ∀ c : Dev nD,
      r.2.mem ((c.tc : Thread nD τ).loc main_v9)
        = Cert.Mlp.result (Cert.Mlp.lookup (m ((c.tc : Thread nD τ).loc main_arg1)) (Cert.Mlp.clip (m ((c.tc : Thread nD τ).loc main_arg0))))
            (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(((h c).2 main_v9 (Pipeline.mem_restRefs_of main_v9 (by decide) (by decide))).trans (result_tail m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.lean ====
/-
  A codebook lookup followed by a two-layer perceptron with the tanh form of GELU, against the same written with
  whole-array operations. On the extended reals both end at one function of the arguments (Proof/Spec.lean): the
  row of each token, then out = (∑ h, gelu ((∑ d, q d · W1 d h) + b1 h) · W2 h o) + b2 o. The tiled program clamps the
  index into [0, 8191] before the lookup; the precondition puts every index there, where the clamp is the identity
  (Proof/PreIndex.lean). Its run is read off its frame (Proof/KValue.lean), the other program's run is written out
  operation by operation (Proof/RefValue.lean). No rewrite was applied when the program was idealized, so nothing is
  owed for that conjunct.
-/
import proofs.«430718_j51926154608671_3_alg».proof.Defs
import proofs.«430718_j51926154608671_3_alg».proof.Proof.Gen.Kernel
import proofs.«430718_j51926154608671_3_alg».proof.Proof.Gen.Kernel.Frame
import proofs.«430718_j51926154608671_3_alg».proof.Proof.Gen.KernelIdeal
import proofs.«430718_j51926154608671_3_alg».proof.Proof.Gen.KernelIdeal.Frame
import proofs.«430718_j51926154608671_3_alg».proof.Proof.Gen.ReferenceIdeal
import proofs.«430718_j51926154608671_3_alg».proof.Proof.Gen.Pre_finite_inputs
import proofs.«430718_j51926154608671_3_alg».proof.Proof.Spec
import proofs.«430718_j51926154608671_3_alg».proof.Proof.PreIndex
import proofs.«430718_j51926154608671_3_alg».proof.Proof.RefValue
import proofs.«430718_j51926154608671_3_alg».proof.Proof.KValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- Both runs end at the perceptron of the rows looked up at the index as given: the tiled program's clamp drops out
    under the precondition, and the other program's arguments are the same arrays. -/
theorem algebraic : Cert.algebraic_KernelIdeal_ReferenceIdeal := by
  intro m ρ m' ρ' hpre hagree
  refine ⟨fun c => Cert.Mlp.result (Cert.Mlp.lookup (m ((c.tc : Thread Cert.KernelIdeal.nD Cert.KernelIdeal.τ).loc Cert.KernelIdeal.main_arg1)) (m ((c.tc : Thread Cert.KernelIdeal.nD Cert.KernelIdeal.τ).loc Cert.KernelIdeal.main_arg0)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩) (Cert.KernelIdeal.KValue.run m ρ)
    rw [Cert.Mlp.clip_eq_of_pre _ _ _ _ _ _ (hpre c)]
  · refine (θ_run Cert.ReferenceIdeal.defs _ _).mono (fun _ h c => ⟨(h c).1.trans ?_, (h c).2⟩) (Cert.ReferenceIdeal.RefValue.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
